-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 32 := constantI S_ 32 100000#32
  let main_v11 : IVec S512 32 := broadcastInDim S512 ![] bcast_S_S512 main_c_3
  let main_v12 : IVec S512 1 := cmpi .slt main_arg1 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S2x512x1 : Shape := ⟨3, ![2, 512, 1]⟩
abbrev S2000x512 : Shape := ⟨2, ![2000, 512]⟩
abbrev S1x512x1 : Shape := ⟨3, ![1, 512, 1]⟩
abbrev S2000 : Shape := ⟨1, ![2000]⟩
abbrev S2000x1 : Shape := ⟨2, ![2000, 1]⟩
abbrev S512x2000 : Shape := ⟨2, ![512, 2000]⟩

abbrev nBuf : Space → Nat
  | .hbm => 88
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S1x1, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i1⟩
  | .hbm, ⟨34, _⟩ => ⟨S512, .i1⟩
  | .hbm, ⟨35, _⟩ => ⟨S512x512, .f32⟩
  | .hbm, ⟨36, _⟩ => ⟨S512x512, .i1⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S512, .f32⟩
  | .hbm, ⟨53, _⟩ => ⟨S512x512, .bf16⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S_, .f32⟩
  | .hbm, ⟨58, _⟩ => ⟨S512, .f32⟩
  | .hbm, ⟨59, _⟩ => ⟨S2x512x1, .f32⟩
  | .hbm, ⟨60, _⟩ => ⟨S_, .f32⟩
  | .hbm, ⟨61, _⟩ => ⟨S512x1, .f32⟩
  | .hbm, ⟨62, _⟩ => ⟨S512, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S512x512, .bf16⟩
  | .local _ .vmem, ⟨1, _⟩ => ⟨S2000x512, .f32⟩
  | .local _ .vmem, ⟨2, _⟩ => ⟨S2000x512, .f32⟩
  | .local _ .vmem, ⟨3, _⟩ => ⟨S1x512x1, .f32⟩
  | .local _ .vmem, ⟨4, _⟩ => ⟨S1x512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_v32 : Ref sig .tc := ⟨.hbm, 66, rfl⟩
abbrev main_cst_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_9 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_10 : Ref sig .tc := ⟨.hbm, 77, rfl⟩
abbrev main_v41 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_cst_13 : Ref sig .tc := ⟨.hbm, 86, rfl⟩
abbrev main_v47 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bitsLt_bf16_f32 : FTy.bits .bf16 < FTy.bits .f32
  bcast_S_S512 : S_.BroadcastsInDim S512 (![] : Fin 0 → Fin S512.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  bcast_S512_S512x512_0 : S512.BroadcastsInDim S512x512 (![0] : Fin 1 → Fin S512x512.rank)
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x2000_S512 : S512x2000.Reduces [1] S512
  shapeCasts_S512_S512x1 : S512.ShapeCasts S512x1
  reducesTo_S2x512x1_S512x1_d0 : S2x512x1.ReducesTo [0] S512x1
  shapeCasts_S512x1_S512 : S512x1.ShapeCasts S512
  reducesTo_S512_S_d0 : S512.ReducesTo [0] S_
  gather_S100000x512_S512x1_S512x512_1_0_n_n_0_1_1512_wf : GatherDims.WF S100000x512 S512x1 S512x512 [1] [0] [] [0] [] 1 ![1, 512]
  dot_S512x512_S2000x512_S512x2000_1_1_0_0_n_n_wf : DotDims.WF S512x512 S2000x512 S512x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S2x512x1.size a
  hwx0_2 : ∀ i : grid0.Coords, EltTy.bits .f32 = 32 ∨ (Rect.block (s := S2x512x1) S1x512x1.size (cc0_transform_2 i) (hinb0_2 i)).WholeWords (EltTy.packing .f32)

variable [Facts₀]

def gather_S100000x512_S512x1_S512x512_1_0_n_n_0_1_1512 : GatherDims S100000x512 S512x1 S512x512 where
  offsetDims := [1]
  collapsedSliceDims := [0]
  operandBatchingDims := []
  startIndicesBatchingDims := []
  startIndexMap := [0]
  indexVectorDim := 1
  sliceSizes := ![1, 512]
  wf := gather_S100000x512_S512x1_S512x512_1_0_n_n_0_1_1512_wf
def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf

abbrev win0_0 : Pipeline.Window sig grid0 :=
  Pipeline.Window.ofSpec (Memref.whole main_v10) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S100000 : Shape := ⟨1, ![100000]⟩
abbrev S100000x1 : Shape := ⟨2, ![100000, 1]⟩
abbrev S512x1 : Shape := ⟨2, ![512, 1]⟩
abbrev S512x100000 : Shape := ⟨2, ![512, 100000]⟩
abbrev S512x2 : Shape := ⟨2, ![512, 2]⟩

abbrev nBuf : Space → Nat
  | .hbm => 86
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S100000x512, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x1, .f32⟩
  | .hbm, ⟨10, _⟩ => ⟨S100000x1, .f32⟩
  | .hbm, ⟨11, _⟩ => ⟨S100000x512, .f32⟩
  | .hbm, ⟨12, _⟩ => ⟨S100000x512, .f32⟩
  | .hbm, ⟨13, _⟩ => ⟨S512x512, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x512, .f32⟩
  | .hbm, ⟨22, _⟩ => ⟨S512x512, .f32⟩
  | .hbm, ⟨23, _⟩ => ⟨S512x100000, .f32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S512x1, .i32⟩
  | .hbm, ⟨41, _⟩ => ⟨S512x2, .i32⟩
  | .hbm, ⟨42, _⟩ => ⟨S_, .f32⟩
  | .hbm, ⟨43, _⟩ => ⟨S512, .f32⟩
  | .hbm, ⟨44, _⟩ => ⟨S512x100000, .f32⟩
  | .hbm, ⟨45, _⟩ => ⟨S_, .f32⟩
  | .hbm, ⟨46, _⟩ => ⟨S512x100000, .f32⟩
  | .hbm, ⟨47, _⟩ => ⟨S512x100000, .f32⟩
  | .hbm, ⟨48, _⟩ => ⟨S_, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512x1, .f32⟩
  | .hbm, ⟨54, _⟩ => ⟨S512x100000, .f32⟩
  | .hbm, ⟨55, _⟩ => ⟨S512x100000, .f32⟩
  | .hbm, ⟨56, _⟩ => ⟨S512x100000, .f32⟩
  | .hbm, ⟨57, _⟩ => ⟨S_, .f32⟩
  | .hbm, ⟨58, _⟩ => ⟨S512, .f32⟩
  | .hbm, ⟨59, _⟩ => ⟨S512x1, .f32⟩
  | .hbm, ⟨60, _⟩ => ⟨S512x1, .f32⟩
  | .hbm, ⟨61, _⟩ => ⟨S512x100000, .f32⟩
  | .hbm, ⟨62, _⟩ => ⟨S512x100000, .f32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S_, .i32⟩
  | .hbm, ⟨74, _⟩ => ⟨S512, .i32⟩
  | .hbm, ⟨75, _⟩ => ⟨S512, .i32⟩
  | .hbm, ⟨76, _⟩ => ⟨S512, .i32⟩
  | .hbm, ⟨77, _⟩ => ⟨S512x1, .i32⟩
  | .hbm, ⟨78, _⟩ => ⟨S512x1, .i32⟩
  | .hbm, ⟨79, _⟩ => ⟨S512x2, .i32⟩
  | .hbm, ⟨80, _⟩ => ⟨S512, .f32⟩
  | .hbm, ⟨81, _⟩ => ⟨S512, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_call0_cst_0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_cst_1 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  reducesTo_S512x512_S512_d1 : S512x512.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512 : S_.BroadcastsInDim S512 (![] : Fin 0 → Fin S512.rank)
  concatenates_S512x1_S512x1_S512x2_d1 : Shape.Concatenates [S512x1, S512x1] S512x2 1
  bcast_S_S512x100000 : S_.BroadcastsInDim S512x100000 (![] : Fin 0 → Fin S512x100000.rank)
  reducesTo_S512x100000_S512_d1 : S512x100000.ReducesTo [1] S512
  bcast_S512x1_S512x100000_0_1 : S512x1.BroadcastsInDim S512x100000 (![0, 1] : Fin 2 → Fin S512x100000.rank)
  reducesTo_S512_S_d0 : S512.ReducesTo [0] S_
  dot_S512x512_S100000x512_S512x100000_1_1_0_0_n_n_wf : DotDims.WF S512x512 S100000x512 S512x100000 [1] [1] [0] [0] [] []
  scatter_S512x100000_S512x2_S512_n_01_01_1_wf : ScatterDims.WF S512x100000 S512x2 S512 [] [0, 1] [0, 1] 1
  gather_S512x100000_S512x2_S512_n_01_n_n_01_1_11_wf : GatherDims.WF S512x100000 S512x2 S512 [] [0, 1] [] [0, 1] [] 1 ![1, 1]

variable [Facts₀]

def dot_S512x512_S100000x512_S512x100000_1_1_0_0_n_n : DotDims S512x512 S100000x512 S512x100000 where
  lhsContracting := [1]
  rhsContracting := [1]
  lhsNonContracting := [0]
  rhsNonContracting := [0]
  lhsBatch := []
  rhsBatch := []
  wf := dot_S512x512_S100000x512_S512x100000_1_1_0_0_n_n_wf
def scatter_S512x100000_S512x2_S512_n_01_01_1 : ScatterDims S512x100000 S512x2 S512 where
  updateWindowDims := []
  insertedWindowDims := [0, 1]
  scatterDimsToOperandDims := [0, 1]
  indexVectorDim := 1
  wf := scatter_S512x100000_S512x2_S512_n_01_01_1_wf
def gather_S512x100000_S512x2_S512_n_01_n_n_01_1_11 : GatherDims S512x100000 S512x2 S512 where
  offsetDims := []
  collapsedSliceDims := [0, 1]
  operandBatchingDims := []
  startIndicesBatchingDims := []
  startIndexMap := [0, 1]
  indexVectorDim := 1
  sliceSizes := ![1, 1]
  wf := gather_S512x100000_S512x2_S512_n_01_n_n_01_1_11_wf

class Facts : Prop extends Facts₀ where

variable [Facts]
-- ==== Proof.Spec.lean ====
/-
  The mathematics both programs compute, over the reals.

  A row `x` of activations and the rows `w c` of a class table are first divided by their Euclidean norms clamped
  below by `ε` (`unit`); `cosv` is the inner product of two such unit vectors. The margin loss of a row with target
  class `g` is `log (∑ c, exp (l c)) - l g`, where `l c = s · cos c` off the target and `l g = s · (cos g - mg)` at it.

  `kRow` is that loss arranged as ONE pass over the table makes it: the plain sum `S = ∑ c, exp (s · cos c)` with the
  scale folded into `x` before the products (`slogit`), from which the target's plain term `exp r` is taken out and the
  margined term put in, the logarithm guarded below by `tiny`. `rRow` is the same loss arranged as a shifted
  log-softmax makes it: every logit lowered by a common real `M` before the exponential. The two agree whatever `M`
  is, as long as the guard is below `exp (-s)` (each cosine is at least `-1`): `RealAlg.kRow_eq_rRow`.
-/
import Mathlib.Analysis.SpecialFunctions.Log.Basic
import Mathlib.Analysis.SpecialFunctions.Sqrt
import Mathlib.Analysis.SpecialFunctions.Exp

noncomputable section

namespace CosMargin

variable {δ γ : Type} [Fintype δ] [Fintype γ] [DecidableEq γ]

/-- The Euclidean norm of `v`, clamped below by `ε`. -/
def cnorm (ε : ℝ) (v : δ → ℝ) : ℝ := max (Real.sqrt (∑ d, v d * v d)) ε

/-- `v` divided by its clamped norm. -/
def unit (ε : ℝ) (v : δ → ℝ) (d : δ) : ℝ := v d / cnorm ε v

/-- The cosine of `x` and `w` (exactly so when both norms are at least `ε`). -/
def cosv (ε : ℝ) (x w : δ → ℝ) : ℝ := ∑ d, unit ε x d * unit ε w d

/-- The scaled cosine with the scale folded into `x` before the products. -/
def slogit (ε s : ℝ) (x w : δ → ℝ) : ℝ := ∑ d, (unit ε x d * s) * unit ε w d

/-- The one-pass row loss from its three ingredients: the plain sum `S`, the target's plain logit `r`, the
    target's cosine `cg`. -/
def kRowOf (s mg tiny S r cg : ℝ) : ℝ :=
  Real.log (max (S - Real.exp r + Real.exp (s * (cg - mg))) tiny) - s * (cg - mg)

/-- The one-pass row loss. -/
def kRow (ε s mg tiny : ℝ) (x : δ → ℝ) (w : γ → δ → ℝ) (g : γ) : ℝ :=
  kRowOf s mg tiny (∑ c, Real.exp (slogit ε s x (w c))) (slogit ε s x (w g)) (cosv ε x (w g))

/-- The margined, scaled logit of class `c` when the target is `g`. -/
def rLogit (ε s mg : ℝ) (x : δ → ℝ) (w : γ → δ → ℝ) (g c : γ) : ℝ :=
  s * (cosv ε x (w c) + if c = g then -mg else 0)

/-- The shifted log-softmax row loss, the shift `M` any real. -/
def rRow (ε s mg M : ℝ) (x : δ → ℝ) (w : γ → δ → ℝ) (g : γ) : ℝ :=
  -((rLogit ε s mg x w g g - M) - Real.log (∑ c, Real.exp (rLogit ε s mg x w g c - M)))

/-- The mean of 512 row losses. -/
def meanOf (r : Fin 512 → ℝ) : ℝ := (∑ b, r b) / 512

/-! ## The numbers the programs spell, as exact rationals -/

/-- The norm clamp, the binary32 number nearest 1e-12. -/
def epsv : ℝ := 9223372 / 2 ^ 63
/-- The margin, the binary32 number nearest 0.35. -/
def mgv : ℝ := 11744051 / 2 ^ 25
/-- The guard under the logarithm, the binary32 number nearest 1e-30. -/
def tinyv : ℝ := 10633824 / 2 ^ 123

/-- Row `(h · 25 + c) · 2000 + j` of the table: tile `c` of half `h`, row `j` of the tile. -/
def tileRow (h : Fin 2) (c : Fin 25) (j : Fin 2000) : Fin 100000 :=
  ⟨(h.val * 25 + c.val) * 2000 + j.val, by have := h.isLt; have := c.isLt; have := j.isLt; omega⟩

end CosMargin

end
-- ==== Proof.Inputs.lean ====
/-
  The three input arrays read as real data, and what the precondition says of them.

  `x` is the 512 × 512 array of activations, `w` the 100000 × 512 class table, `g` the 512 target classes (32-bit words).
  Under the precondition every entry of `x` and `w` is a real number and every target lies below 100000 (`Good`);
  `xr`, `wr` are the entries as reals and `gi` the targets as indices of the table's rows. `kLoss` and `rLoss` are
  the mean row loss in the two arrangements of Spec.lean, as the extended real a program's result buffer holds.
-/
import proofs.«425047_j72997264163312_2_alg».proof.Proof.Spec
import Idealize.ShloMosaic.PureOps.Ideal
import Idealize.ShloMosaic.Lib.ValueIdx

noncomputable section

namespace CosMargin

open Idealize.ShloMosaic Idealize.ShloMosaic.ValueIdx

/-- The shapes of the three inputs. -/
abbrev XS : Shape := ⟨2, ![512, 512]⟩
abbrev GS : Shape := ⟨1, ![512]⟩
abbrev WS : Shape := ⟨2, ![100000, 512]⟩

/-- Row `b` of the activations, as reals. -/
def xr (x : XS.Idx → EReal) (b : Fin 512) (d : Fin 512) : ℝ := (x (ix2 b d)).toReal
/-- Row `c` of the class table, as reals. -/
def wr (w : WS.Idx → EReal) (c : Fin 100000) (d : Fin 512) : ℝ := (w (ix2 c d)).toReal
/-- Row `b`'s target class, as a row of the table. -/
def gi (g : GS.Idx → BitVec 32) (b : Fin 512) : Fin 100000 :=
  ⟨(g (ix1 b)).toNat % 100000, Nat.mod_lt _ (by norm_num)⟩

/-- What the precondition says: the float inputs are finite and every target class is a row of the table. -/
structure Good (x : XS.Idx → EReal) (g : GS.Idx → BitVec 32) (w : WS.Idx → EReal) : Prop where
  hx : ∀ b d, x (ix2 b d) = ((xr x b d : ℝ) : EReal)
  hw : ∀ c d, w (ix2 c d) = ((wr w c d : ℝ) : EReal)
  hg : ∀ b, (g (ix1 b)).toNat < 100000

/-- The mean one-pass row loss. -/
def kLoss (x : XS.Idx → EReal) (g : GS.Idx → BitVec 32) (w : WS.Idx → EReal) : EReal :=
  ((meanOf fun b => kRow epsv 64 mgv tinyv (xr x b) (wr w) (gi g b) : ℝ) : EReal)

/-- The mean shifted log-softmax row loss, row `b` shifted by `M b`. -/
def rLoss (M : Fin 512 → ℝ) (x : XS.Idx → EReal) (g : GS.Idx → BitVec 32) (w : WS.Idx → EReal) : EReal :=
  ((meanOf fun b => rRow epsv 64 mgv (M b) (xr x b) (wr w) (gi g b) : ℝ) : EReal)

end CosMargin

end
-- ==== Proof.Lift.lean ====
/-
  From extended reals back to reals: the float literals the programs spell, and each operation the programs
  apply, on arguments that are real numbers.
-/
import proofs.«425047_j72997264163312_2_alg».proof.Proof.Inputs
import Idealize.ShloMosaic.PureOps.Ideal.Laws

noncomputable section

namespace CosMargin

open Idealize.ShloMosaic

/-- The norm clamp is positive. -/
theorem lift_epsv_pos : (0 : ℝ) < epsv := by
  unfold epsv; positivity

/-! ## The literals -/

theorem ofBits_eps : Ideal.ofBits .f32 0x2B8CBCCC#32 = ((epsv : ℝ) : EReal) := by
  simp [Ideal.ofBits, Ideal.ieee, epsv, -EReal.coe_mul]; norm_num
theorem ofBits_64 : Ideal.ofBits .f32 0x42800000#32 = ((64 : ℝ) : EReal) := by
  simp [Ideal.ofBits, Ideal.ieee, -EReal.coe_mul]; norm_num
theorem ofBits_mg : Ideal.ofBits .f32 0x3EB33333#32 = ((mgv : ℝ) : EReal) := by
  simp [Ideal.ofBits, Ideal.ieee, mgv, -EReal.coe_mul]; norm_num
theorem ofBits_neg_mg : Ideal.ofBits .f32 0xBEB33333#32 = ((-mgv : ℝ) : EReal) := by
  simp [Ideal.ofBits, Ideal.ieee, mgv, -EReal.coe_mul]; norm_num
theorem ofBits_tiny : Ideal.ofBits .f32 0x0DA24260#32 = ((tinyv : ℝ) : EReal) := by
  simp [Ideal.ofBits, Ideal.ieee, tinyv, -EReal.coe_mul]; norm_num
theorem ofBits_512 : Ideal.ofBits .f32 0x44000000#32 = ((512 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

/-! ## The operations on real arguments -/

theorem sum_coe {ι : Type} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]
theorem div_coe_coe (a b : ℝ) (hb : b ≠ 0) : Ideal.div (a : EReal) (b : EReal) = ((a / b : ℝ) : EReal) := by
  rw [Ideal.div_coe hb, ← EReal.coe_mul, mul_one_div]
theorem sqrt_coe_of_nonneg (a : ℝ) (ha : 0 ≤ a) : Ideal.sqrt (a : EReal) = ((Real.sqrt a : ℝ) : EReal) := by
  rw [Ideal.sqrt_coe, if_neg (not_lt.mpr ha)]
theorem log_coe_of_pos (a : ℝ) (ha : 0 < a) : Ideal.log (a : EReal) = ((Real.log a : ℝ) : EReal) := by
  rw [Ideal.log_coe, if_neg (not_le.mpr ha)]
theorem exp_coe' (a : ℝ) : Ideal.exp (a : EReal) = ((Real.exp a : ℝ) : EReal) := rfl
theorem max_coe (a b : ℝ) : max (a : EReal) (b : EReal) = ((max a b : ℝ) : EReal) :=
  (EReal.coe_strictMono.monotone.map_max).symm

theorem cnorm_pos {δ : Type} [Fintype δ] {ε : ℝ} (hε : 0 < ε) (v : δ → ℝ) : 0 < cnorm ε v :=
  lt_of_lt_of_le hε (le_max_right _ _)

/-- One entry of a real row divided by the row's clamped norm, the sum of squares `ss` given as the real it is. -/
theorem unit_coe {δ : Type} [Fintype δ] (v : δ → ℝ) (d : δ) (ss : EReal) (hss : ss = ((∑ k, v k * v k : ℝ) : EReal)) :
    Ideal.div ((v d : ℝ) : EReal) (max (Ideal.sqrt ss) ((epsv : ℝ) : EReal)) = ((unit epsv v d : ℝ) : EReal) := by
  rw [hss, sqrt_coe_of_nonneg _ (Finset.sum_nonneg fun k _ => mul_self_nonneg (v k)), max_coe]
  exact div_coe_coe (v d) (cnorm epsv v) (ne_of_gt (cnorm_pos lift_epsv_pos v))

end CosMargin

end
-- ==== Proof.KPayload.lean ====
/-
  What one grid point's body stores, entry by entry: a point of the first kind stores zero; every point then adds, to
  what the accumulator holds, the sum over the tile's 2000 rows of the exponential of the inner product of the
  (already scaled) activation row with the tile row divided by its clamped norm.
-/
import proofs.«425047_j72997264163312_2_alg».proof.Proof.Gen.KernelIdeal.Skeleton
import proofs.«425047_j72997264163312_2_alg».proof.Proof.Lift
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.ValueIdx CosMargin

/-! ## Layout operations and a row sum, read at an index given by coordinates -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the rows of an `[a, b]` array reads, at `i`, the sum over `k` of the array at `(i, k)`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => rfl
  | ⟨1, _⟩ => rfl

/-! The product's operand indices, axis by axis. -/

theorem lhs_mm_0 (i : S512x2000.Idx) (q : dot_S512x512_S2000x512_S512x2000_1_1_0_0_n_n.contr.Idx) :
    (dot_S512x512_S2000x512_S512x2000_1_1_0_0_n_n.lhsIdx i q 0).val = (i 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl
theorem lhs_mm_1 (i : S512x2000.Idx) (q : dot_S512x512_S2000x512_S512x2000_1_1_0_0_n_n.contr.Idx) :
    (dot_S512x512_S2000x512_S512x2000_1_1_0_0_n_n.lhsIdx i q 1).val = (q ⟨0, by decide⟩).val :=
  dot_S512x512_S2000x512_S512x2000_1_1_0_0_n_n.lhsIdx_val_of_single rfl i q
theorem rhs_mm_0 (i : S512x2000.Idx) (q : dot_S512x512_S2000x512_S512x2000_1_1_0_0_n_n.contr.Idx) :
    (dot_S512x512_S2000x512_S512x2000_1_1_0_0_n_n.rhsIdx i q 0).val = (i 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl
theorem rhs_mm_1 (i : S512x2000.Idx) (q : dot_S512x512_S2000x512_S512x2000_1_1_0_0_n_n.contr.Idx) :
    (dot_S512x512_S2000x512_S512x2000_1_1_0_0_n_n.rhsIdx i q 1).val = (q ⟨0, by decide⟩).val :=
  dot_S512x512_S2000x512_S512x2000_1_1_0_0_n_n.rhsIdx_val_of_single rfl i q

/-- The product into a zero accumulator reads, at `(b, j)`, the sum over `k` of the left operand at `(b, k)` times
    the right operand at `(j, k)`: both operands are contracted along their second axis. -/
theorem mm_apply (x : FVec Ideal S512x512 .bf16) (y : FVec Ideal S2000x512 .bf16) (b : Fin 512) (j : Fin 2000) :
    matmul dot_S512x512_S2000x512_S512x2000_1_1_0_0_n_n none x y (constant (F := Ideal) S512x2000 .f32 0x00000000#32) (ix2 b j)
      = ∑ k : Fin 512, x (ix2 b k) * y (ix2 j k) := by
  simp only [matmul]
  rw [Ideal.matmul_constant_zero_apply, ← Equiv.sum_comp (ValueIdx.contrEquiv1 dot_S512x512_S2000x512_S512x2000_1_1_0_0_n_n 512 rfl rfl).symm]
  refine Finset.sum_congr rfl fun k _ => ?_
  have hk := ValueIdx.contrEquiv1_symm_val dot_S512x512_S2000x512_S512x2000_1_1_0_0_n_n 512 rfl rfl k
  have el : dot_S512x512_S2000x512_S512x2000_1_1_0_0_n_n.lhsIdx (ix2 b j) ((ValueIdx.contrEquiv1 dot_S512x512_S2000x512_S512x2000_1_1_0_0_n_n 512 rfl rfl).symm k) = ix2 b k := funext fun a => Fin.ext (by
    match a with
    | ⟨0, _⟩ => exact lhs_mm_0 _ _
    | ⟨1, _⟩ => exact (lhs_mm_1 _ _).trans hk)
  have er : dot_S512x512_S2000x512_S512x2000_1_1_0_0_n_n.rhsIdx (ix2 b j) ((ValueIdx.contrEquiv1 dot_S512x512_S2000x512_S512x2000_1_1_0_0_n_n 512 rfl rfl).symm k) = ix2 j k := funext fun a => Fin.ext (by
    match a with
    | ⟨0, _⟩ => exact rhs_mm_0 _ _
    | ⟨1, _⟩ => exact (rhs_mm_1 _ _).trans hk)
  rw [el, er]

/-! ## The two stored values -/

/-- The reset value is zero. -/
theorem pay1_apply (b : Fin 512) : (k0_pay1 (F := Ideal)) (ix3 (0 : Fin 1) b (0 : Fin 1)) = 0 := by
  unfold k0_pay1
  refine (shapeCast_ab_1ab_apply _ _ (0 : Fin 1) b (0 : Fin 1)).trans ?_
  exact Ideal.ofBits_zero_f32

/-- The accumulated value: what was there plus the tile's sum of exponentials. -/
theorem pay2_apply (v3 : Vec Ideal S2000x512 .f32) (v13 : Vec Ideal S512x512 .bf16) (v19 : Vec Ideal S1x512x1 .f32)
    (wt : Fin 2000 → Fin 512 → ℝ) (xs : Fin 512 → Fin 512 → ℝ)
    (hw : ∀ j d, v3 (ix2 j d) = ((wt j d : ℝ) : EReal)) (hx : ∀ b d, v13 (ix2 b d) = ((xs b d : ℝ) : EReal)) (b : Fin 512) :
    k0_pay2 v3 v13 v19 (ix3 (0 : Fin 1) b (0 : Fin 1))
      = v19 (ix3 (0 : Fin 1) b (0 : Fin 1)) + ((∑ j : Fin 2000, Real.exp (∑ d, xs b d * unit epsv (wt j) d) : ℝ) : EReal) := by
  unfold k0_pay2
  refine (shapeCast_ab_1ab_apply _ _ (0 : Fin 1) b (0 : Fin 1)).trans ?_
  refine (addf_apply _ _ _).trans ?_
  rw [shapeCast_1ab_ab_apply, shapeCast_a_a1_apply, rowSum_apply]
  refine congrArg (v19 (ix3 (0 : Fin 1) b (0 : Fin 1)) + ·) ?_
  rw [← sum_coe]
  refine Finset.sum_congr rfl fun j _ => ?_
  rw [← exp_coe']
  refine congrArg Ideal.exp ?_
  refine (mm_apply _ _ b j).trans ?_
  rw [← sum_coe]
  refine Finset.sum_congr rfl fun d _ => ?_
  rw [shapeCast_self, hx, EReal.coe_mul]
  refine congrArg (((xs b d : ℝ) : EReal) * ·) ?_
  refine (divf_apply _ _ _).trans ?_
  rw [broadcastTo_a1_ab_apply]
  refine (congrArg (Ideal.div (v3 (ix2 j d))) (maximumf_apply _ _ _)).trans ?_
  show Ideal.div (v3 (ix2 j d)) (max (Ideal.sqrt (shapeCast S2000x1 _ _ (ix2 j (0 : Fin 1)))) (Ideal.ofBits .f32 0x2B8CBCCC#32)) = _
  rw [shapeCast_a_a1_apply, rowSum_apply, ofBits_eps, hw]
  refine unit_coe (wt j) d _ ?_
  rw [← sum_coe]
  refine Finset.sum_congr rfl fun k _ => ?_
  refine (mulf_apply _ _ _).trans ?_
  rw [hw, EReal.coe_mul]

end Cert.KernelIdeal.KV

end
-- ==== Proof.KRegion.lean ====
/-
  The output array after the region: entry `(h, b, 0)` is the sum, over the 25 tiles of half `h` of the table and the
  2000 rows of each tile, of the exponential of the inner product of activation row `b` with the normalised table row.
-/
import proofs.«425047_j72997264163312_2_alg».proof.Proof.Gen.KernelIdeal.Frame
import proofs.«425047_j72997264163312_2_alg».proof.Proof.KPayload

noncomputable section

namespace Cert.KernelIdeal.KV

open Cert.KernelIdeal Cert.KernelIdeal.Gen Idealize.ShloMosaic Idealize.ShloMosaic.TcCoe Idealize.ShloMosaic.ValueIdx Idealize.SL.Sem CosMargin

namespace Region

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that continues a half the body leaves the accumulator block it found plus the tile's sums. -/
theorem out_B (c : Dev nD) (i : grid0.Coords) (a2 : Memref sig .tc .vmem S512x512 .bf16) (h2 : a2.IsWhole)
    (a3 : Memref sig .tc .vmem S2000x512 .f32) (h3 : a3.IsWhole) (a4 : Memref sig .tc .vmem S1x512x1 .f32) (h4 : a4.IsWhole)
    (hc : ¬cond0_0 i) (x0 : Vec F S512x512 .bf16) (x1 : Vec F S2000x512 .f32) (xo : Vec F S1x512x1 .f32) :
    out0_B_2 c i a2 h2 a3 h3 a4 h4 hc x0 x1 xo = k0_pay2 x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S512x512) hz2,
    View.ld_unit_zero (S := S2000x512) hz2, View.ld_unit_zero (S := S1x512x1) hz3]

/-- At the first point of a half the body zeroes the accumulator block, then adds the tile's sums to it. -/
theorem out_A (c : Dev nD) (i : grid0.Coords) (a2 : Memref sig .tc .vmem S512x512 .bf16) (h2 : a2.IsWhole)
    (a3 : Memref sig .tc .vmem S2000x512 .f32) (h3 : a3.IsWhole) (a4 : Memref sig .tc .vmem S1x512x1 .f32) (h4 : a4.IsWhole)
    (hc : cond0_0 i) (x0 : Vec F S512x512 .bf16) (x1 : Vec F S2000x512 .f32) :
    out0_A_2 c i a2 h2 a3 h3 a4 h4 hc x0 x1 = k0_pay2 x1 x0 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x512x1) hz3, View.readCov_unit_zero (S := S1x512x1) _ hz3]
  simp only [View.readAt_eq_ld, h2.read_unread, h3.read_unread, View.ld_unit_zero (S := S512x512) hz2,
    View.ld_unit_zero (S := S2000x512) hz2]

end Pieces

variable (m : (ℓ : Loc nD τ sig) → Buf (Elt Ideal) ℓ)

/-! ## The blocks the body reads, and the arrays they are blocks of, by their literal types -/

abbrev xblk (c : Dev nD) (t : Fin cfg0.N) : Vec Ideal S512x512 .bf16 := iblk m c 0 t
abbrev wblk (c : Dev nD) (t : Fin cfg0.N) : Vec Ideal S2000x512 .f32 := iblk m c 1 t
abbrev xarr (c : Dev nD) : Vec Ideal S512x512 .bf16 := V m c main_v10
abbrev warr (c : Dev nD) : Vec Ideal S100000x512 .f32 := V m c main_arg2
abbrev acc (c : Dev nD) (n : ℕ) (h : n < cfg0.N) : Vec Ideal S1x512x1 .f32 := outsAt0 m c n h

/-- Row `j` of block `p` of the table (the blocks are of 2000 rows). -/
def rowAt (p : ℕ) (j : Fin 2000) : Fin 100000 := ⟨(p * 2000 + j.val) % 100000, Nat.mod_lt _ (by norm_num)⟩

/-- The activations' window is the whole array at every point. -/
theorem xblk_apply (c : Dev nD) (t : Fin cfg0.N) (b d : Fin 512) : xblk m c t (ix2 b d) = xarr m c (ix2 b d) := by
  have hi : win0_0.index t 0 = 0 ∧ win0_0.index t 1 = 0 :=
    (by decide +kernel : ∀ t : Fin grid0.N, win0_0.index t 0 = 0 ∧ win0_0.index t 1 = 0) t
  unfold xblk xarr iblk
  rw [View.read_apply]
  show V m c main_v10 _ = V m c main_v10 _
  congr 1
  funext a
  apply Fin.ext
  match a with
  | ⟨0, _⟩ => show win0_0.index t 0 * 512 + 1 * b.val = b.val; rw [hi.1]; omega
  | ⟨1, _⟩ => show win0_0.index t 1 * 512 + 1 * d.val = d.val; rw [hi.2]; omega

/-- The table's window at point `t` is its block `t` of 2000 rows. -/
theorem wblk_apply (c : Dev nD) (t : Fin cfg0.N) (j : Fin 2000) (d : Fin 512) :
    wblk m c t (ix2 j d) = warr m c (ix2 (rowAt t.val j) d) := by
  have hN : t.val < 50 := lt_of_lt_of_eq t.isLt (show cfg0.N = 50 from N_0)
  have hi : win0_1.index t 0 = t.val ∧ win0_1.index t 1 = 0 :=
    (by decide +kernel : ∀ t : Fin grid0.N, win0_1.index t 0 = t.val ∧ win0_1.index t 1 = 0) t
  unfold wblk warr iblk
  rw [View.read_apply]
  show V m c main_arg2 _ = V m c main_arg2 _
  congr 1
  funext a
  apply Fin.ext
  have hj := j.isLt
  match a with
  | ⟨0, _⟩ => show win0_1.index t 0 * 2000 + 1 * j.val = (t.val * 2000 + j.val) % 100000; rw [hi.1]; omega
  | ⟨1, _⟩ => show win0_1.index t 1 * 512 + 1 * d.val = d.val; rw [hi.2]; omega

/-! ## What the accumulator block holds after each point -/

/-- The sum, over the 2000 rows of block `p` of the table, of the exponential of row `b`'s product with the unit row. -/
def tileSum (xs : Fin 512 → Fin 512 → ℝ) (wt : Fin 100000 → Fin 512 → ℝ) (p : ℕ) (b : Fin 512) : ℝ :=
  ∑ j : Fin 2000, Real.exp (∑ d, xs b d * unit epsv (wt (rowAt p j)) d)

/-- The first point of a half leaves its tile's sums. -/
theorem acc_A (c : Dev nD) (xs : Fin 512 → Fin 512 → ℝ) (wt : Fin 100000 → Fin 512 → ℝ)
    (hxs : ∀ b d, xarr m c (ix2 b d) = ((xs b d : ℝ) : EReal))
    (hw : ∀ r d, warr m c (ix2 r d) = ((wt r d : ℝ) : EReal))
    (t : Fin cfg0.N) (h0 : t.val % 25 = 0) (b : Fin 512) :
    acc m c t.val t.isLt (ix3 (0 : Fin 1) b (0 : Fin 1)) = ((tileSum xs wt t.val b : ℝ) : EReal) := by
  unfold acc
  rw [outsAt0_A m c t h0]
  refine (congrFun (out_A (F := Ideal) c (grid0.coords t) (ms0_0 t) (hs0_0 t) (ms0_1 t) (hs0_1 t) (ms0_2 t) (hs0_2 t)
    ((hcond0_0 t).mpr h0) (xblk m c t) (wblk m c t)) (ix3 (0 : Fin 1) b (0 : Fin 1))).trans ?_
  refine (pay2_apply (wblk m c t) (xblk m c t) (k0_pay1 (F := Ideal)) (fun j => wt (rowAt t.val j)) xs
    (fun j d => (wblk_apply m c t j d).trans (hw _ d)) (fun b d => (xblk_apply m c t b d).trans (hxs b d)) b).trans ?_
  rw [pay1_apply b, zero_add]
  rfl

/-- A later point of a half adds its tile's sums to what the point before left. -/
theorem acc_B (c : Dev nD) (xs : Fin 512 → Fin 512 → ℝ) (wt : Fin 100000 → Fin 512 → ℝ)
    (hxs : ∀ b d, xarr m c (ix2 b d) = ((xs b d : ℝ) : EReal))
    (hw : ∀ r d, warr m c (ix2 r d) = ((wt r d : ℝ) : EReal))
    (t : Fin cfg0.N) (h0 : ¬t.val % 25 = 0) (b : Fin 512) :
    acc m c t.val t.isLt (ix3 (0 : Fin 1) b (0 : Fin 1))
      = acc m c (t.val - 1) (Nat.lt_of_le_of_lt (Nat.sub_le _ _) t.isLt) (ix3 (0 : Fin 1) b (0 : Fin 1))
        + ((tileSum xs wt t.val b : ℝ) : EReal) := by
  unfold acc
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (xblk m c t) (wblk m c t)
    (outsAt0 m c (t.val - 1) (Nat.lt_of_le_of_lt (Nat.sub_le _ _) t.isLt))) (ix3 (0 : Fin 1) b (0 : Fin 1))).trans ?_
  refine (pay2_apply (wblk m c t) (xblk m c t) (outsAt0 m c (t.val - 1) (Nat.lt_of_le_of_lt (Nat.sub_le _ _) t.isLt))
    (fun j => wt (rowAt t.val j)) xs
    (fun j d => (wblk_apply m c t j d).trans (hw _ d)) (fun b d => (xblk_apply m c t b d).trans (hxs b d)) b).trans ?_
  rfl

/-- After point `n` the block holds the sums of the tiles from the first of `n`'s half up to `n`'s. -/
theorem acc_eq (c : Dev nD) (xs : Fin 512 → Fin 512 → ℝ) (wt : Fin 100000 → Fin 512 → ℝ)
    (hxs : ∀ b d, xarr m c (ix2 b d) = ((xs b d : ℝ) : EReal))
    (hw : ∀ r d, warr m c (ix2 r d) = ((wt r d : ℝ) : EReal)) :
    ∀ (n : ℕ) (h : n < cfg0.N) (b : Fin 512), acc m c n h (ix3 (0 : Fin 1) b (0 : Fin 1))
      = ((∑ s ∈ Finset.range (n % 25 + 1), tileSum xs wt (n / 25 * 25 + s) b : ℝ) : EReal) := by
  intro n
  induction n with
  | zero =>
    intro h b
    rw [acc_A m c xs wt hxs hw ⟨0, h⟩ rfl b]
    simp
  | succ k ih =>
    intro h b
    by_cases h0 : (k + 1) % 25 = 0
    · rw [acc_A m c xs wt hxs hw ⟨k + 1, h⟩ h0 b, h0, Finset.sum_range_one]
      have e : (k + 1) / 25 * 25 + 0 = k + 1 := by omega
      show ((tileSum xs wt (k + 1) b : ℝ) : EReal) = _
      rw [e]
    · rw [acc_B m c xs wt hxs hw ⟨k + 1, h⟩ h0 b]
      show acc m c k _ (ix3 (0 : Fin 1) b (0 : Fin 1)) + ((tileSum xs wt (k + 1) b : ℝ) : EReal) = _
      rw [ih (Nat.lt_of_succ_lt h) b, ← EReal.coe_add]
      have e1 : (k + 1) % 25 = k % 25 + 1 := by omega
      have e2 : (k + 1) / 25 = k / 25 := by omega
      have e3 : k + 1 = k / 25 * 25 + (k % 25 + 1) := by omega
      rw [e1, e2, Finset.sum_range_succ _ (k % 25 + 1)]
      congr 2
      rw [← e3]

/-! ## The array after the region -/

/-- The array the two write-backs leave: entry `(h, b, 0)` is the sums of the 25 tiles of half `h`. -/
def G (xs : Fin 512 → Fin 512 → ℝ) (wt : Fin 100000 → Fin 512 → ℝ) : S2x512x1.Idx → EReal := fun i =>
  ((∑ s ∈ Finset.range 25, tileSum xs wt ((i 0).val * 25 + s) (i 1) : ℝ) : EReal)

theorem G_apply (xs : Fin 512 → Fin 512 → ℝ) (wt : Fin 100000 → Fin 512 → ℝ) (i : S2x512x1.Idx) (h : ℕ) (b : Fin 512)
    (h0 : (i 0).val = h) (h1 : (i 1).val = b.val) :
    G xs wt i = ((∑ s ∈ Finset.range 25, tileSum xs wt (h * 25 + s) b : ℝ) : EReal) := by
  have e : (i 1 : Fin 512) = b := Fin.ext h1
  unfold G
  rw [h0, e]

/-- Where the accumulator's window sits at each point: block `t / 25` on the first axis. -/
theorem index2 (t : Fin cfg0.N) : win0_2.index t 0 = t.val / 25 ∧ win0_2.index t 1 = 0 ∧ win0_2.index t 2 = 0 :=
  (by decide +kernel : ∀ t : Fin grid0.N, win0_2.index t 0 = t.val / 25 ∧ win0_2.index t 1 = 0 ∧ win0_2.index t 2 = 0) t

/-- What a write-back writes is its block of that array. -/
theorem flushed_eq (c : Dev nD) (xs : Fin 512 → Fin 512 → ℝ) (wt : Fin 100000 → Fin 512 → ℝ)
    (hxs : ∀ b d, xarr m c (ix2 b d) = ((xs b d : ℝ) : EReal))
    (hw : ∀ r d, warr m c (ix2 r d) = ((wt r d : ℝ) : EReal))
    (t : Fin cfg0.N) (hf : (cfg0.win 2).flush t = true) :
    (dats m 0 c).flushed 2 t = ((cfg0.win 2).blk t).view.read (Elt Ideal) (G xs wt) := by
  have h24 : t.val % 25 = 24 := (flush0_2 t).mp hf
  have hi := index2 t
  show (cfg0.win 2).cut (grid0.coords t) ((dats m 0 c).after 2 t) = _
  rw [after0_2]
  refine funext fun (y : S1x512x1.Idx) => ?_
  rw [View.read_apply]
  obtain ⟨a, b, z, rfl⟩ : ∃ (a : Fin 1) (b : Fin 512) (z : Fin 1), y = ix3 a b z := ⟨_, _, _, eq_ix3 y⟩
  obtain rfl : a = 0 := Subsingleton.elim _ _
  obtain rfl : z = 0 := Subsingleton.elim _ _
  show acc m c t.val t.isLt (ix3 (0 : Fin 1) b (0 : Fin 1)) = G xs wt _
  rw [acc_eq m c xs wt hxs hw t.val t.isLt b, h24]
  refine (G_apply xs wt _ (t.val / 25) b ?_ ?_).symm
  · show win0_2.index t 0 * 1 + 1 * (0 : Fin 1).val = t.val / 25
    rw [hi.1]; simp
  · show win0_2.index t 1 * 512 + 1 * b.val = b.val
    rw [hi.2.1]; omega

end Region

open Region

variable (m : (ℓ : Loc nD τ sig) → Buf (Elt Ideal) ℓ)

/-- The array the region writes, when the two arrays it reads hold real numbers. -/
theorem region_value (c : Dev nD) (xs : Fin 512 → Fin 512 → ℝ) (wt : Fin 100000 → Fin 512 → ℝ)
    (hxs : ∀ b d, (V m c main_v10 : S512x512.Idx → EReal) (ix2 b d) = ((xs b d : ℝ) : EReal))
    (hw : ∀ r d, (V m c main_arg2 : S100000x512.Idx → EReal) (ix2 r d) = ((wt r d : ℝ) : EReal))
    (h : Fin 2) (b : Fin 512) :
    ((dats m 0 c).arrAt 2 cfg0.N : S2x512x1.Idx → EReal) (ix3 h b (0 : Fin 1))
      = ((∑ t : Fin 25, ∑ j : Fin 2000, Real.exp (∑ d, xs b d * unit epsv (wt (tileRow h t j)) d) : ℝ) : EReal) := by
  have hN : cfg0.N = 50 := N_0
  have hh := h.isLt
  have ht : h.val * 25 + 24 < cfg0.N := by rw [hN]; omega
  have hi := index2 ⟨h.val * 25 + 24, ht⟩
  have hmem : (ix3 h b (0 : Fin 1) : S2x512x1.Idx) ∈ ((cfg0.win 2).blk ⟨h.val * 25 + 24, ht⟩).view.set := by
    show _ ∈ ((View.whole main_v27).slice (win0_2.rect ⟨h.val * 25 + 24, ht⟩)).set
    rw [View.set_slice_whole, Rect.mem_set_unit]
    intro a
    match a with
    | ⟨0, _⟩ =>
      show win0_2.index ⟨h.val * 25 + 24, ht⟩ 0 * 1 ≤ h.val ∧ h.val < win0_2.index ⟨h.val * 25 + 24, ht⟩ 0 * 1 + 1
      rw [hi.1]; dsimp only; omega
    | ⟨1, _⟩ =>
      show win0_2.index ⟨h.val * 25 + 24, ht⟩ 1 * 512 ≤ b.val ∧ b.val < win0_2.index ⟨h.val * 25 + 24, ht⟩ 1 * 512 + 512
      rw [hi.2.1]; omega
    | ⟨2, _⟩ =>
      show win0_2.index ⟨h.val * 25 + 24, ht⟩ 2 * 1 ≤ (0 : Fin 1).val ∧ (0 : Fin 1).val < win0_2.index ⟨h.val * 25 + 24, ht⟩ 2 * 1 + 1
      rw [hi.2.2]; simp
  refine ((dats m 0 c).arrAt_apply_of_mem 2 (G xs wt) (flushed_eq m c xs wt hxs hw) cfg0.N ⟨h.val * 25 + 24, ht⟩
    (ix3 h b (0 : Fin 1)) ht ((flush0_2 _).mpr (by dsimp only; omega)) hmem).trans ?_
  rw [G_apply xs wt (ix3 h b (0 : Fin 1)) h.val b rfl rfl, Finset.sum_range]
  refine congrArg _ (Finset.sum_congr rfl fun t _ => ?_)
  unfold tileSum
  refine Finset.sum_congr rfl fun j _ => ?_
  have e : rowAt (h.val * 25 + t.val) j = tileRow h t j := by
    apply Fin.ext
    have := t.isLt
    have := j.isLt
    show ((h.val * 25 + t.val) * 2000 + j.val) % 100000 = (h.val * 25 + t.val) * 2000 + j.val
    omega
  rw [e]

end Cert.KernelIdeal.KV

end
-- ==== Proof.KHostPre.lean ====
/-
  What the host operations before the region leave in the array the region reads as its first operand: the
  activations divided by their rows' clamped norms, times the scale.
-/
import proofs.«425047_j72997264163312_2_alg».proof.Proof.Gen.KernelIdeal.Frame
import proofs.«425047_j72997264163312_2_alg».proof.Proof.Lift
import Idealize.ShloMosaic.Lib.Pipeline.Value
import Idealize.ShloMosaic.Lib.ValueLayout
import Idealize.ShloMosaic.Lib.StableHlo.Run

noncomputable section

namespace Cert.KernelIdeal.KV

open Cert.KernelIdeal Cert.KernelIdeal.Gen Idealize.ShloMosaic Idealize.ShloMosaic.TcCoe Idealize.ShloMosaic.ValueIdx Idealize.SL.Sem CosMargin

variable (m : (ℓ : Loc nD τ sig) → Buf (Elt Ideal) ℓ)

/-- The three inputs as launched on core `c`. -/
abbrev xin (c : Dev nD) : XS.Idx → EReal := m ((c.tc : Thread nD τ).loc main_arg0)
abbrev gin (c : Dev nD) : GS.Idx → BitVec 32 := m ((c.tc : Thread nD τ).loc main_arg1)
abbrev win (c : Dev nD) : WS.Idx → EReal := m ((c.tc : Thread nD τ).loc main_arg2)

/-! ## The operations' term, one operation at a time -/

/-- The row sums of squares. -/
def hostPre_v1 (x0 : (⟨S512x512, .f32⟩ : BufTy).Contents (Elt Ideal)) : (⟨S512, .f32⟩ : BufTy).Contents (Elt Ideal) :=
  Host.reduceAdd (F := Ideal) (mulf x0 x0) (constant (F := Ideal) S_ .f32 0x00000000#32) reducesTo_S512x512_S512_d1 h_S_
/-- The rows' clamped norms, one column. -/
def hostPre_v5 (x0 : (⟨S512x512, .f32⟩ : BufTy).Contents (Elt Ideal)) : (⟨S512x1, .f32⟩ : BufTy).Contents (Elt Ideal) :=
  maximumf (Host.sqrt (F := Ideal) (broadcastInDim S512x1 ![0] bcast_S512_S512x1_0 (hostPre_v1 x0)))
    (broadcastInDim S512x1 ![] bcast_S_S512x1 (constant (F := Ideal) S_ .f32 0x2B8CBCCC#32))
/-- The unit rows. -/
def hostPre_v7 (x0 : (⟨S512x512, .f32⟩ : BufTy).Contents (Elt Ideal)) : (⟨S512x512, .f32⟩ : BufTy).Contents (Elt Ideal) :=
  Host.divf (F := Ideal) (φ := .f32) x0 (broadcastInDim S512x512 ![0, 1] bcast_S512x1_S512x512_0_1 (hostPre_v5 x0))
/-- The unit rows times the scale, narrowed. -/
def hostPre_v10 (x0 : (⟨S512x512, .f32⟩ : BufTy).Contents (Elt Ideal)) : (⟨S512x512, .bf16⟩ : BufTy).Contents (Elt Ideal) :=
  truncf .bf16 (mulf (hostPre_v7 x0) (broadcastInDim S512x512 ![] bcast_S_S512x512 (constant (F := Ideal) S_ .f32 0x42800000#32))) bitsLt_bf16_f32

/-! ## Each read at an index -/

/-- The host row sum from zero, at row `b`: the sum over the row. -/
theorem hostPre_rowsum_apply (y0 : (⟨S512x512, .f32⟩ : BufTy).Contents (Elt Ideal)) (b : Fin 512) :
    Host.reduceAdd (F := Ideal) y0 (constant (F := Ideal) S_ .f32 0x00000000#32) reducesTo_S512x512_S512_d1 h_S_ (ix1 b)
      = ∑ k : Fin 512, y0 (ix2 b k) := by
  simp only [Host.reduceAdd, Ideal.hostReduceAdd_def]
  rw [Ideal.hostReduceAdd_single reducesTo_S512x512_S512_d1 (by decide)]
  rw [show constant (F := Ideal) S_ .f32 0x00000000#32 (Shape.Idx.first h_S_) = 0 from Ideal.ofBits_zero_f32, zero_add]
  refine Finset.sum_congr rfl fun k _ => ?_
  exact congrArg y0 (funext fun a => Fin.ext (by match a with | ⟨0, _⟩ => rfl | ⟨1, _⟩ => rfl))

theorem hostPre_v1_apply (x0 : (⟨S512x512, .f32⟩ : BufTy).Contents (Elt Ideal)) (b : Fin 512) :
    hostPre_v1 x0 (ix1 b) = ∑ k : Fin 512, x0 (ix2 b k) * x0 (ix2 b k) := by
  unfold hostPre_v1
  rw [hostPre_rowsum_apply]
  rfl

theorem hostPre_v5_apply (x0 : (⟨S512x512, .f32⟩ : BufTy).Contents (Elt Ideal)) (b : Fin 512) :
    hostPre_v5 x0 (ix2 b (0 : Fin 1)) = max (Ideal.sqrt (hostPre_v1 x0 (ix1 b))) (Ideal.ofBits .f32 0x2B8CBCCC#32) := by
  unfold hostPre_v5
  rw [maximumf_apply]
  congr 1
  show Ideal.sqrt (broadcastInDim S512x1 ![0] bcast_S512_S512x1_0 (hostPre_v1 x0) (ix2 b (0 : Fin 1))) = _
  rw [broadcastInDim_apply _ bcast_S512_S512x1_0 (hostPre_v1 x0) (ix2 b (0 : Fin 1)) (ix1 b) (fun a => match a with
    | ⟨0, _⟩ => by show b.val = if (512 : Nat) = 1 then 0 else b.val; rw [if_neg (by decide)])]

theorem hostPre_v7_apply (x0 : (⟨S512x512, .f32⟩ : BufTy).Contents (Elt Ideal)) (b d : Fin 512) :
    hostPre_v7 x0 (ix2 b d) = Ideal.div (x0 (ix2 b d)) (hostPre_v5 x0 (ix2 b (0 : Fin 1))) := by
  unfold hostPre_v7
  show Ideal.div (x0 (ix2 b d)) (broadcastInDim S512x512 ![0, 1] bcast_S512x1_S512x512_0_1 (hostPre_v5 x0) (ix2 b d)) = _
  rw [broadcastInDim_apply _ bcast_S512x1_S512x512_0_1 (hostPre_v5 x0) (ix2 b d) (ix2 b (0 : Fin 1)) (fun a => match a with
    | ⟨0, _⟩ => by show b.val = if (512 : Nat) = 1 then 0 else b.val; rw [if_neg (by decide)]
    | ⟨1, _⟩ => by show 0 = if (1 : Nat) = 1 then 0 else d.val; rw [if_pos rfl])]

theorem hostPre_v10_apply (x0 : (⟨S512x512, .f32⟩ : BufTy).Contents (Elt Ideal)) (b d : Fin 512) :
    hostPre_v10 x0 (ix2 b d) = hostPre_v7 x0 (ix2 b d) * Ideal.ofBits .f32 0x42800000#32 := by
  unfold hostPre_v10
  show hostPre_v7 x0 (ix2 b d) * broadcastInDim S512x512 ![] bcast_S_S512x512 (constant (F := Ideal) S_ .f32 0x42800000#32) (ix2 b d) = _
  rw [broadcastInDim_apply _ bcast_S_S512x512 _ (ix2 b d) ix0 (fun a => a.elim0)]
  rfl

/-- On real entries `v`: the unit row times the scale. -/
theorem hostPre_v10_real (x0 : (⟨S512x512, .f32⟩ : BufTy).Contents (Elt Ideal)) (v : Fin 512 → Fin 512 → ℝ)
    (hx : ∀ b d, x0 (ix2 b d) = ((v b d : ℝ) : EReal)) (b d : Fin 512) :
    hostPre_v10 x0 (ix2 b d) = ((unit epsv (v b) d * 64 : ℝ) : EReal) := by
  have hss : hostPre_v1 x0 (ix1 b) = ((∑ k, v b k * v b k : ℝ) : EReal) := by
    rw [hostPre_v1_apply, ← sum_coe]
    refine Finset.sum_congr rfl fun k _ => ?_
    rw [hx b k, EReal.coe_mul]
  rw [hostPre_v10_apply, hostPre_v7_apply, hostPre_v5_apply, ofBits_eps, ofBits_64, hx b d, unit_coe (v b) d _ hss, EReal.coe_mul]

/-! ## The array the region reads -/

/-- The array is the operations' term at the activations as launched. -/
theorem V_v10_eq (c : Dev nD) : (V m c main_v10 : S512x512.Idx → EReal) = hostPre_v10 (xin m c) := by
  dsimp only [Gen.V, Gen.V0]
  simp only [Gen.hostOps0, Gen.hostOps0_1, Gen.hostOps0_2, List.flatten_cons, List.flatten_nil, List.append_nil, List.cons_append, List.nil_append]
  after_results
  rfl

/-- The array the region reads as its first operand: the unit activations times the scale. -/
theorem V_v10 (c : Dev nD) (h : Good (xin m c) (gin m c) (win m c)) (b d : Fin 512) :
    (V m c main_v10 : S512x512.Idx → EReal) (ix2 b d) = ((unit epsv (xr (xin m c) b) d * 64 : ℝ) : EReal) :=
  (congrFun (V_v10_eq m c) (ix2 b d)).trans (hostPre_v10_real (xin m c) (xr (xin m c)) h.hx b d)

end Cert.KernelIdeal.KV

end
-- ==== Proof.KHostTake.lean ====
/-
  What the host operations before the region leave per row: the table's row at the row's target class is gathered
  (the class is inside the table, so the gather's fill is never taken) and normalised; its inner product with the unit
  activation row is the target's cosine, and with the scaled unit activation row the target's scaled cosine.
-/
import proofs.«425047_j72997264163312_2_alg».proof.Proof.KHostPre
import Idealize.ShloMosaic.Lib.StableHlo.Predicate
import Idealize.ShloMosaic.Lib.Pipeline.Value
import Idealize.ShloMosaic.PureOps.Ideal.Laws
import Idealize.ShloMosaic.PureOps.Reduce

noncomputable section

namespace Cert.KernelIdeal.KV

open Cert.KernelIdeal Cert.KernelIdeal.Gen Idealize.ShloMosaic Idealize.ShloMosaic.TcCoe Idealize.ShloMosaic.ValueIdx Idealize.SL.Sem CosMargin

variable (m : (ℓ : Loc nD τ sig) → Buf (Elt Ideal) ℓ)

/-! ## A gather of whole rows, read at an index -/

/-- The dimension numbers of a gather of whole rows: the operand is `[N, D]`, there is one start index per result row
    (a column `[R, 1]`), and result row `r` is the operand's row at `r`'s start index. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Entry `(r, k)` of a gather of whole rows is the operand at column `k` of the row that `r`'s start index names, the
    start index read signed and clamped into the operand's rows. -/
theorem gather_rows_apply {α : Type} {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (k : Fin D) :
    Host.gather (rowDims N D R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowDims N D R wf).start (ix2 r k) idx 0 + (rowDims N D R wf).batchCoord (ix2 r k) 0
      + (rowDims N D R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 r k) ⟨List.idxOf (0 : Fin 2) (rowDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N D R wf).start (ix2 r k) idx 1 + (rowDims N D R wf).batchCoord (ix2 r k) 1
      + (rowDims N D R wf).offCoord (ix2 r k) 1 = k.val
    rw [GatherDims.batchCoord_eq_zero _ _ _ List.not_mem_nil]
    unfold GatherDims.start
    rw [dif_neg (fun h : (1 : Fin 2) ∈ (rowDims N D R wf).startIndexMap => Nat.one_ne_zero (congrArg Fin.val (List.mem_singleton.mp h)))]
    simp only [Nat.add_zero, Nat.zero_add]
    rfl

/-! ## The take: the table's row at each row's target class -/

/-- The column of start indices the take computes from the targets: a negative target is raised by the table's height. -/
def startCol (g : IVec S512 32) : IVec S512x1 32 :=
  broadcastInDim S512x1 ![0] bcast_S512_S512x1_0
    (select (cmpi .slt g (broadcastInDim S512 ![] bcast_S_S512 (constantI S_ 32 0#32)))
      (addi g (broadcastInDim S512 ![] bcast_S_S512 (constantI S_ 32 100000#32))) g)

/-- Per row, whether its start index is a row of the table. -/
def inTable (g : IVec S512 32) : IVec S512 1 :=
  Host.reduce IntOp.andi
    (andi (cmpi .sge (startCol g) (broadcastInDim S512x1 ![] bcast_S_S512x1 (constantI S_ 32 0#32)))
      (cmpi .sle (startCol g) (broadcastInDim S512x1 ![0, 1] bcast_S1x1_S512x1_0_1
        (broadcastInDim S1x1 ![1] bcast_S1_S1x1_1 (constantI S1 32 99999#32)))))
    (constantI S_ 1 1#1) reducesTo_S512x1_S512_d1 h_S_

/-- The gathered rows, a row whose start index is outside the table filled with a not-a-number. -/
def takeRows (g : IVec S512 32) (w : FVec Ideal S100000x512 .f32) : FVec Ideal S512x512 .f32 :=
  select (broadcastInDim S512x512 ![0] bcast_S512_S512x512_0 (inTable g))
    (Host.gather gather_S100000x512_S512x1_S512x512_1_0_n_n_0_1_1512 w (startCol g))
    (broadcastInDim S512x512 ![] bcast_S_S512x512 (constant (F := Ideal) S_ .f32 0x7FC00000#32))

/-- A target that is a row of the table is its own start index. -/
theorem startCol_apply (g : IVec S512 32) (r : Fin 512) (hg : (g (ix1 r)).toNat < 100000) :
    startCol g (ix2 r (0 : Fin 1)) = g (ix1 r) := by
  unfold startCol
  rw [broadcastInDim_apply ![0] bcast_S512_S512x1_0 _ (ix2 r (0 : Fin 1)) (ix1 r) (fun a => match a with
    | ⟨0, _⟩ => by show r.val = if (512 : Nat) = 1 then 0 else r.val; rw [if_neg (by decide)])]
  show Scalar.select (IntOp.cmpi .slt (g (ix1 r)) 0#32) (IntOp.addi (g (ix1 r)) 100000#32) (g (ix1 r)) = g (ix1 r)
  have hn : ¬ IntOp.cmpi .slt (g (ix1 r)) 0#32 = 1#1 := fun e => by
    have := (StableHlo.Predicate.slt_iff_toNat (a := g (ix1 r)) (b := 0#32) (by omega) (by decide)).mp e
    simp at this
  exact if_neg hn

/-- A fold over a one-element range is the operation at that element and the initial value. -/
theorem fold_fin_one {α : Type} (f : α → α → α) [Std.Commutative f] [Std.Associative f] (b : α) (u : Fin 1 → α) :
    (Finset.univ : Finset (Fin 1)).fold f b u = f (u 0) b := by
  have h1 : (Finset.univ : Finset (Fin 1)) = {0} := rfl
  rw [h1, Finset.fold_singleton]

/-- Dropping the column's one axis leaves the rows. -/
theorem colReduces : S512x1.Reduces [1] S512 := by decide

/-- A row whose target is a row of the table passes the bounds test. -/
theorem inTable_apply (g : IVec S512 32) (r : Fin 512) (hg : (g (ix1 r)).toNat < 100000) :
    inTable g (ix1 r) = 1#1 := by
  unfold inTable
  refine (Host.reduce_eq_fold_single IntOp.andi _ _ reducesTo_S512x1_S512_d1 colReduces h_S_ (ix1 r)).trans
    ((fold_fin_one IntOp.andi _ _).trans ?_)
  have hl : colReduces.lift (ix1 r) (0 : Fin 1) = ix2 r (0 : Fin 1) :=
    funext fun a => Fin.ext (by match a with | ⟨0, _⟩ => rfl | ⟨1, _⟩ => rfl)
  show IntOp.andi (IntOp.andi (IntOp.cmpi .sge (startCol g (colReduces.lift (ix1 r) (0 : Fin 1))) 0#32)
    (IntOp.cmpi .sle (startCol g (colReduces.lift (ix1 r) (0 : Fin 1))) 99999#32)) 1#1 = 1#1
  rw [hl, startCol_apply g r hg,
    (StableHlo.Predicate.sge_iff_toNat (a := g (ix1 r)) (b := 0#32) (by omega) (by decide)).mpr (Nat.zero_le _),
    (StableHlo.Predicate.sle_iff_toNat (a := g (ix1 r)) (b := 99999#32) (by omega) (by decide)).mpr (by
      show (g (ix1 r)).toNat ≤ 99999; omega)]
  decide

/-- The take at a row whose target is a row of the table is that row of the table. -/
theorem takeRows_apply (g : IVec S512 32) (w : FVec Ideal S100000x512 .f32) (r k : Fin 512)
    (hg : (g (ix1 r)).toNat < 100000) :
    takeRows g w (ix2 r k) = w (ix2 (⟨(g (ix1 r)).toNat, hg⟩ : Fin 100000) k) := by
  unfold takeRows
  show Scalar.select (broadcastInDim S512x512 ![0] bcast_S512_S512x512_0 (inTable g) (ix2 r k))
    (Host.gather gather_S100000x512_S512x1_S512x512_1_0_n_n_0_1_1512 w (startCol g) (ix2 r k)) _ = _
  rw [broadcastInDim_apply ![0] bcast_S512_S512x512_0 (inTable g) (ix2 r k) (ix1 r) (fun a => match a with
    | ⟨0, _⟩ => by show r.val = if (512 : Nat) = 1 then 0 else r.val; rw [if_neg (by decide)]),
    inTable_apply g r hg, select_one]
  have hd : gather_S100000x512_S512x1_S512x512_1_0_n_n_0_1_1512
      = rowDims 100000 512 512 gather_S100000x512_S512x1_S512x512_1_0_n_n_0_1_1512_wf := rfl
  rw [hd]
  refine (gather_rows_apply (by decide) _ w (startCol g) r k).trans ?_
  refine congrArg (fun t : Fin 100000 => w (ix2 t k)) (Fin.ext ?_)
  show min (startCol g (ix2 r (0 : Fin 1))).toInt.toNat (100000 - 1) = (g (ix1 r)).toNat
  rw [startCol_apply g r hg, StableHlo.Predicate.toInt_eq_toNat_of_lt (by omega), Int.toNat_natCast]
  omega

/-! ## Row sums, and rows divided by their clamped norms -/

/-- The sum of each row. -/
def rowSum (y : FVec Ideal S512x512 .f32) : FVec Ideal S512 .f32 :=
  Host.reduceAdd y (constant (F := Ideal) S_ .f32 0x00000000#32) reducesTo_S512x512_S512_d1 h_S_

/-- Every row divided by its Euclidean norm clamped below. -/
def normRows (a : FVec Ideal S512x512 .f32) : FVec Ideal S512x512 .f32 :=
  Host.divf a (broadcastInDim S512x512 ![0, 1] bcast_S512x1_S512x512_0_1
    (maximumf (Host.sqrt (broadcastInDim S512x1 ![0] bcast_S512_S512x1_0 (rowSum (mulf a a))))
      (broadcastInDim S512x1 ![] bcast_S_S512x1 (constant (F := Ideal) S_ .f32 0x2B8CBCCC#32))))

/-- A row's sum is the sum of its 512 entries. -/
theorem hostRowSum_apply (y : FVec Ideal S512x512 .f32) (b : Fin 512) : rowSum y (ix1 b) = ∑ k : Fin 512, y (ix2 b k) := by
  unfold rowSum
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- On an array of real entries, the normalised array's entries are the rows' unit vectors'. -/
theorem normRows_apply (a : FVec Ideal S512x512 .f32) (v : Fin 512 → Fin 512 → ℝ)
    (ha : ∀ b d, a (ix2 b d) = ((v b d : ℝ) : EReal)) (b d : Fin 512) :
    normRows a (ix2 b d) = ((unit epsv (v b) d : ℝ) : EReal) := by
  unfold normRows
  show Ideal.div (a (ix2 b d)) (broadcastInDim S512x512 ![0, 1] bcast_S512x1_S512x512_0_1
    (maximumf (Host.sqrt (broadcastInDim S512x1 ![0] bcast_S512_S512x1_0 (rowSum (mulf a a))))
      (broadcastInDim S512x1 ![] bcast_S_S512x1 (constant (F := Ideal) S_ .f32 0x2B8CBCCC#32))) (ix2 b d)) = _
  rw [broadcastInDim_apply ![0, 1] bcast_S512x1_S512x512_0_1 _ (ix2 b d) (ix2 b (0 : Fin 1)) (fun a => match a with
    | ⟨0, _⟩ => by show b.val = if (512 : Nat) = 1 then 0 else b.val; rw [if_neg (by decide)]
    | ⟨1, _⟩ => by show 0 = if (1 : Nat) = 1 then 0 else d.val; rw [if_pos rfl])]
  show Ideal.div (a (ix2 b d)) (max (Ideal.sqrt (broadcastInDim S512x1 ![0] bcast_S512_S512x1_0 (rowSum (mulf a a)) (ix2 b (0 : Fin 1))))
    (Ideal.ofBits .f32 0x2B8CBCCC#32)) = _
  rw [broadcastInDim_apply ![0] bcast_S512_S512x1_0 (rowSum (mulf a a)) (ix2 b (0 : Fin 1)) (ix1 b) (fun a => match a with
    | ⟨0, _⟩ => by show b.val = if (512 : Nat) = 1 then 0 else b.val; rw [if_neg (by decide)]),
    ofBits_eps, ha b d]
  refine unit_coe (v b) d _ ?_
  rw [hostRowSum_apply, ← sum_coe]
  refine Finset.sum_congr rfl fun k _ => ?_
  show a (ix2 b k) * a (ix2 b k) = _
  rw [ha b k, EReal.coe_mul]

/-- The row-wise inner product of two arrays of real entries is the real inner product. -/
theorem rowSum_mulf_coe (p q : FVec Ideal S512x512 .f32) (u v : Fin 512 → ℝ) (b : Fin 512)
    (hp : ∀ k, p (ix2 b k) = ((u k : ℝ) : EReal)) (hq : ∀ k, q (ix2 b k) = ((v k : ℝ) : EReal)) :
    rowSum (mulf p q) (ix1 b) = ((∑ k, u k * v k : ℝ) : EReal) := by
  rw [hostRowSum_apply, ← sum_coe]
  refine Finset.sum_congr rfl fun k _ => ?_
  show p (ix2 b k) * q (ix2 b k) = _
  rw [hp k, hq k, EReal.coe_mul]

/-! ## The host operations' results as those functions of the inputs -/

/-- The rows' inner products of the unit activations and the unit gathered rows, as the host operations leave them. -/
theorem V_v21_eq (c : Dev nD) :
    (V m c main_v21 : S512.Idx → EReal)
      = rowSum (mulf (normRows (xin m c)) (normRows (takeRows (gin m c) (win m c)))) := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-- The rows' inner products of the scaled unit activations and the unit gathered rows, as the host operations leave
    them (the changes of float format are the identity on extended reals). -/
theorem V_v26_eq (c : Dev nD) :
    (V m c main_v26 : S512.Idx → EReal)
      = rowSum (mulf
          (extf .f32 (truncf .bf16 (mulf (normRows (xin m c))
            (broadcastInDim S512x512 ![] bcast_S_S512x512 (constant (F := Ideal) S_ .f32 0x42800000#32))) bitsLt_bf16_f32) bitsLt_bf16_f32)
          (extf .f32 (truncf .bf16 (normRows (takeRows (gin m c) (win m c))) bitsLt_bf16_f32) bitsLt_bf16_f32)) := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-! ## Under the precondition -/

/-- The gathered rows are the table's rows at the targets, as reals. -/
theorem takeRows_coe (c : Dev nD) (h : Good (xin m c) (gin m c) (win m c)) (r d : Fin 512) :
    takeRows (gin m c) (win m c) (ix2 r d) = ((wr (win m c) (gi (gin m c) r) d : ℝ) : EReal) := by
  rw [takeRows_apply _ _ r d (h.hg r)]
  have e : (⟨(gin m c (ix1 r)).toNat, h.hg r⟩ : Fin 100000) = gi (gin m c) r :=
    Fin.ext (Nat.mod_eq_of_lt (h.hg r)).symm
  rw [e]
  exact h.hw _ d

/-- Row `b`'s cosine with its target class's table row. -/
theorem V_v21 (c : Dev nD) (h : Good (xin m c) (gin m c) (win m c)) (b : Fin 512) :
    (V m c main_v21 : S512.Idx → EReal) (ix1 b)
      = ((cosv epsv (xr (xin m c) b) (wr (win m c) (gi (gin m c) b)) : ℝ) : EReal) := by
  refine (congrFun (V_v21_eq m c) (ix1 b)).trans ?_
  refine (rowSum_mulf_coe _ _ (unit epsv (xr (xin m c) b)) (unit epsv (wr (win m c) (gi (gin m c) b))) b
    (fun k => normRows_apply (xin m c) (xr (xin m c)) h.hx b k)
    (fun k => normRows_apply (takeRows (gin m c) (win m c)) (fun r d => wr (win m c) (gi (gin m c) r) d)
      (takeRows_coe m c h) b k)).trans ?_
  rfl

/-- Row `b`'s scaled cosine with its target class's table row, the scale folded into the activations. -/
theorem V_v26 (c : Dev nD) (h : Good (xin m c) (gin m c) (win m c)) (b : Fin 512) :
    (V m c main_v26 : S512.Idx → EReal) (ix1 b)
      = ((slogit epsv 64 (xr (xin m c) b) (wr (win m c) (gi (gin m c) b)) : ℝ) : EReal) := by
  refine (congrFun (V_v26_eq m c) (ix1 b)).trans ?_
  refine (rowSum_mulf_coe _ _ (fun k => unit epsv (xr (xin m c) b) k * 64) (unit epsv (wr (win m c) (gi (gin m c) b))) b
    (fun k => ?_)
    (fun k => normRows_apply (takeRows (gin m c) (win m c)) (fun r d => wr (win m c) (gi (gin m c) r) d)
      (takeRows_coe m c h) b k)).trans ?_
  · show normRows (xin m c) (ix2 b k) * Ideal.ofBits .f32 0x42800000#32 = _
    rw [normRows_apply (xin m c) (xr (xin m c)) h.hx b k, ofBits_64, ← EReal.coe_mul]
  · rfl

end Cert.KernelIdeal.KV

end
-- ==== Proof.KTail.lean ====
/-
  The host operations after the region: the two halves' sums added, the target's plain term taken out and its margined
  term put in, the guarded logarithm, the target's margined logit subtracted, and the mean over the rows.
-/
import proofs.«425047_j72997264163312_2_alg».proof.Proof.Gen.KernelIdeal.Frame
import proofs.«425047_j72997264163312_2_alg».proof.Proof.Lift
import Idealize.ShloMosaic.Lib.Pipeline.Value
import Idealize.ShloMosaic.Lib.ValueLayout
import Idealize.ShloMosaic.Lib.StableHlo.Run
import Idealize.ShloMosaic.Lib.ValueIdxRank1

noncomputable section

namespace Cert.KernelIdeal.KV

open Cert.KernelIdeal Cert.KernelIdeal.Gen Idealize.ShloMosaic Idealize.ShloMosaic.TcCoe Idealize.ShloMosaic.ValueIdx Idealize.SL.Sem CosMargin

variable (m : (ℓ : Loc nD τ sig) → Buf (Elt Ideal) ℓ)

section Pure

variable (A : S2x512x1.Idx → EReal) (R G : S512.Idx → EReal) (Sh : Fin 2 → Fin 512 → ℝ) (r cg : Fin 512 → ℝ)

/-- The guard under the logarithm is positive. -/
theorem tinyv_pos : 0 < tinyv := by unfold tinyv; positivity

/-- The two halves' sums added: row `b` of the sum over the leading axis, the unit axis dropped. -/
theorem halves_apply (hS : ∀ h b, A (ix3 h b (0 : Fin 1)) = ((Sh h b : ℝ) : EReal)) (b : Fin 512) :
    shapeCast S512 (Host.reduceAdd (F := Ideal) (φ := .f32) A (constant S_ .f32 0x00000000#32) reducesTo_S2x512x1_S512x1_d0 h_S_)
        shapeCasts_S512x1_S512 (ix1 b) = ((∑ h, Sh h b : ℝ) : EReal) := by
  rw [shapeCast_apply _ shapeCasts_S512x1_S512 (ix1 b) (ix2 b (0 : Fin 1)) (by
    rw [Shape.rowMajor_val_two, Shape.rowMajor_val_one]
    show b.val * 1 + 0 = b.val
    omega)]
  show Ideal.hostReduceAdd reducesTo_S2x512x1_S512x1_d0 A (Ideal.ofBits .f32 0x00000000#32) (ix2 b (0 : Fin 1)) = _
  rw [Ideal.hostReduceAdd_single reducesTo_S2x512x1_S512x1_d0 (by decide), Ideal.ofBits_zero_f32, zero_add, ← sum_coe]
  refine Finset.sum_congr rfl fun k _ => ?_
  rw [← hS k b]
  exact congrArg A (funext fun a => Fin.ext (by match a with | ⟨0, _⟩ => rfl | ⟨1, _⟩ => rfl | ⟨2, _⟩ => rfl))

/-- One row's loss as the operations after the sums make it. -/
def tailRow : S512.Idx → EReal :=
  subf (F := Ideal) (φ := .f32)
    (Host.log
      (maximumf
        (addf
          (subf
            (fun i =>
              shapeCast S512 (Host.reduceAdd A (constant S_ .f32 0x00000000#32) reducesTo_S2x512x1_S512x1_d0 h_S_)
                shapeCasts_S512x1_S512 i)
            (Host.exp R))
          (Host.exp
            (mulf (broadcastInDim S512 ![] bcast_S_S512 (constant S_ .f32 0x42800000#32))
              (subf G (broadcastInDim S512 ![] bcast_S_S512 (constant S_ .f32 0x3EB33333#32))))))
        (broadcastInDim S512 ![] bcast_S_S512 (constant S_ .f32 0x0DA24260#32))))
    (mulf (broadcastInDim S512 ![] bcast_S_S512 (constant S_ .f32 0x42800000#32))
      (subf G (broadcastInDim S512 ![] bcast_S_S512 (constant S_ .f32 0x3EB33333#32))))

theorem tailRow_apply (hS : ∀ h b, A (ix3 h b (0 : Fin 1)) = ((Sh h b : ℝ) : EReal))
    (hr : ∀ b, R (ix1 b) = ((r b : ℝ) : EReal)) (hcg : ∀ b, G (ix1 b) = ((cg b : ℝ) : EReal)) (b : Fin 512) :
    tailRow A R G (ix1 b) = ((kRowOf 64 mgv tinyv (∑ h, Sh h b) (r b) (cg b) : ℝ) : EReal) := by
  show Ideal.log (max
      ((shapeCast S512 (Host.reduceAdd (F := Ideal) (φ := .f32) A (constant S_ .f32 0x00000000#32) reducesTo_S2x512x1_S512x1_d0 h_S_)
          shapeCasts_S512x1_S512 (ix1 b) - Ideal.exp (R (ix1 b)))
        + Ideal.exp (Ideal.ofBits .f32 0x42800000#32 * (G (ix1 b) - Ideal.ofBits .f32 0x3EB33333#32)))
      (Ideal.ofBits .f32 0x0DA24260#32))
    - Ideal.ofBits .f32 0x42800000#32 * (G (ix1 b) - Ideal.ofBits .f32 0x3EB33333#32) = _
  rw [halves_apply A Sh hS b, hr b, hcg b, ofBits_64, ofBits_mg, ofBits_tiny]
  rw [exp_coe', ← EReal.coe_sub, ← EReal.coe_sub, ← EReal.coe_mul, exp_coe', ← EReal.coe_add, max_coe,
    log_coe_of_pos _ (lt_of_lt_of_le tinyv_pos (le_max_right _ _)), ← EReal.coe_sub]
  rfl

/-- The mean of the rows' losses as the last two operations make it. -/
theorem tail_pure (hS : ∀ h b, A (ix3 h b (0 : Fin 1)) = ((Sh h b : ℝ) : EReal))
    (hr : ∀ b, R (ix1 b) = ((r b : ℝ) : EReal)) (hcg : ∀ b, G (ix1 b) = ((cg b : ℝ) : EReal)) :
    Host.divf (F := Ideal) (φ := .f32)
        (Host.reduceAdd (tailRow A R G) (constant S_ .f32 0x00000000#32) reducesTo_S512_S_d0 h_S_)
        (constant S_ .f32 0x44000000#32)
      = fun _ => ((meanOf fun b => kRowOf 64 mgv tinyv (∑ h, Sh h b) (r b) (cg b) : ℝ) : EReal) := by
  funext i
  show Ideal.div (Ideal.hostReduceAdd reducesTo_S512_S_d0 (tailRow A R G) (Ideal.ofBits .f32 0x00000000#32) i)
      (Ideal.ofBits .f32 0x44000000#32) = _
  rw [Ideal.hostReduceAdd_total reducesTo_S512_S_d0 (fun b => b.elim0), Ideal.ofBits_zero_f32, zero_add, ofBits_512,
    ← Equiv.sum_comp (idxEquiv1 (n := 512)).symm (tailRow A R G)]
  have e : ∀ b : Fin 512, tailRow A R G ((idxEquiv1 (n := 512)).symm b)
      = ((kRowOf 64 mgv tinyv (∑ h, Sh h b) (r b) (cg b) : ℝ) : EReal) := fun b => tailRow_apply A R G Sh r cg hS hr hcg b
  rw [Finset.sum_congr rfl fun b _ => e b, sum_coe, div_coe_coe _ _ (by norm_num)]
  rfl

end Pure

/-- The program's result from the region's array and the two per-row values computed before the region, all real. -/
theorem tail_value (c : Dev nD) (Sh : Fin 2 → Fin 512 → ℝ) (r cg : Fin 512 → ℝ)
    (hS : ∀ h b, ((dats m 0 c).arrAt 2 cfg0.N : S2x512x1.Idx → EReal) (ix3 h b (0 : Fin 1)) = ((Sh h b : ℝ) : EReal))
    (hr : ∀ b, (V m c main_v26 : S512.Idx → EReal) (ix1 b) = ((r b : ℝ) : EReal))
    (hcg : ∀ b, (V m c main_v21 : S512.Idx → EReal) (ix1 b) = ((cg b : ℝ) : EReal)) :
    (Pipeline.afterTail₀ cfgs (dats m) 0 (V0 m) [hostOps1] c main_v47 : S_.Idx → EReal)
      = fun _ => ((meanOf fun b => kRowOf 64 mgv tinyv (∑ h, Sh h b) (r b) (cg b) : ℝ) : EReal) := by
  unfold Pipeline.afterTail₀
  show StableHlo.after hostOps1 _ (Proc.devRef .tc main_v47) = _
  after_results_simp
  have e27 : Pipeline.withArrays (cfgs 0).spec c (V0 m c) (fun w => (dats m 0 c).arrAt w (cfgs 0).N) (Proc.devRef .tc main_v27)
      = (dats m 0 c).arrAt 2 cfg0.N := Pipeline.withArrays_arr spec0 launch0.win.arr_inj c _ _ 2
  have e26 : Pipeline.withArrays (cfgs 0).spec c (V0 m c) (fun w => (dats m 0 c).arrAt w (cfgs 0).N) (Proc.devRef .tc main_v26)
      = V m c main_v26 := Pipeline.withArrays_of_ne _ c (V0 m c) _ main_v26 (by decide : ∀ w, Pipeline.arrRef spec0 w ≠ main_v26)
  have e21 : Pipeline.withArrays (cfgs 0).spec c (V0 m c) (fun w => (dats m 0 c).arrAt w (cfgs 0).N) (Proc.devRef .tc main_v21)
      = V m c main_v21 := Pipeline.withArrays_of_ne _ c (V0 m c) _ main_v21 (by decide : ∀ w, Pipeline.arrRef spec0 w ≠ main_v21)
  rw [e27, e26, e21]
  clear e27 e26 e21
  generalize (dats m 0 c).arrAt 2 cfg0.N = A at hS ⊢
  generalize V m c main_v26 = R at hr ⊢
  generalize V m c main_v21 = G at hcg ⊢
  exact tail_pure A R G Sh r cg hS hr hcg

end Cert.KernelIdeal.KV

end
-- ==== Proof.RealAlg.lean ====
/-
  The two arrangements of the margin loss agree over the reals.
-/
import proofs.«425047_j72997264163312_2_alg».proof.Proof.Spec
import Mathlib.Analysis.Complex.ExponentialBounds
import Mathlib.Data.Fintype.EquivFin
import Mathlib.Algebra.BigOperators.Fin
import Mathlib.Algebra.BigOperators.Field

noncomputable section

namespace CosMargin

variable {δ γ : Type} [Fintype δ] [Fintype γ] [DecidableEq γ]

/-- The clamped norm is positive. -/
theorem cnorm_pos_aux {ε : ℝ} (hε : 0 < ε) (v : δ → ℝ) : 0 < cnorm ε v :=
  lt_of_lt_of_le hε (le_max_right _ _)

/-- A vector divided by its clamped norm has squared length at most one. -/
theorem sum_unit_sq_le {ε : ℝ} (hε : 0 < ε) (v : δ → ℝ) : ∑ d, unit ε v d * unit ε v d ≤ 1 := by
  have hc : 0 < cnorm ε v := cnorm_pos_aux hε v
  have hnn : 0 ≤ ∑ d, v d * v d := Finset.sum_nonneg (fun d _ => mul_self_nonneg _)
  have hle : Real.sqrt (∑ d, v d * v d) ≤ cnorm ε v := le_max_left _ _
  have hsq : ∑ d, v d * v d ≤ cnorm ε v * cnorm ε v := by
    calc ∑ d, v d * v d
        = Real.sqrt (∑ d, v d * v d) * Real.sqrt (∑ d, v d * v d) := (Real.mul_self_sqrt hnn).symm
      _ ≤ cnorm ε v * cnorm ε v := mul_self_le_mul_self (Real.sqrt_nonneg _) hle
  have hsum : ∑ d, unit ε v d * unit ε v d = (∑ d, v d * v d) / (cnorm ε v * cnorm ε v) := by
    rw [Finset.sum_div]
    refine Finset.sum_congr rfl (fun d _ => ?_)
    unfold unit
    rw [div_mul_div_comm]
  rw [hsum, div_le_one (mul_pos hc hc)]
  exact hsq

/-- Each cosine is at least `-1`. -/
theorem neg_one_le_cosv {ε : ℝ} (hε : 0 < ε) (x w : δ → ℝ) : -1 ≤ cosv ε x w := by
  have h1 := sum_unit_sq_le hε x
  have h2 := sum_unit_sq_le hε w
  have h3 : ∑ d, (-(unit ε x d * unit ε x d + unit ε w d * unit ε w d) / 2)
      ≤ ∑ d, unit ε x d * unit ε w d := by
    refine Finset.sum_le_sum (fun d _ => ?_)
    nlinarith [mul_self_nonneg (unit ε x d + unit ε w d)]
  have h4 : ∑ d, (-(unit ε x d * unit ε x d + unit ε w d * unit ε w d) / 2)
      = -((∑ d, unit ε x d * unit ε x d) + ∑ d, unit ε w d * unit ε w d) / 2 := by
    rw [← Finset.sum_add_distrib, ← Finset.sum_neg_distrib, Finset.sum_div]
  unfold cosv
  linarith

/-- Folding the scale into `x` before the products scales the cosine. -/
theorem slogit_eq (ε s : ℝ) (x w : δ → ℝ) : slogit ε s x w = s * cosv ε x w := by
  unfold slogit cosv
  rw [Finset.mul_sum]
  exact Finset.sum_congr rfl (fun d _ => by ring)

/-- The one-pass loss is the shifted log-softmax loss, whatever the shift. -/
theorem kRow_eq_rRow {ε s mg tiny : ℝ} (hε : 0 < ε) (hs : 0 ≤ s) (ht : tiny ≤ Real.exp (-s))
    (x : δ → ℝ) (w : γ → δ → ℝ) (g : γ) (hne : ∃ c, c ≠ g) (M : ℝ) :
    kRow ε s mg tiny x w g = rRow ε s mg M x w g := by
  obtain ⟨c₀, hc₀⟩ := hne
  have hl : ∀ c, slogit ε s x (w c) = s * cosv ε x (w c) := fun c => slogit_eq ε s x (w c)
  have hgg : rLogit ε s mg x w g g = s * (cosv ε x (w g) - mg) := by
    unfold rLogit
    rw [if_pos rfl]
    ring
  have hoff : ∀ c, c ≠ g → rLogit ε s mg x w g c = s * cosv ε x (w c) := by
    intro c hc
    unfold rLogit
    rw [if_neg hc]
    ring
  -- taking the target's plain term out of the plain sum and putting the margined term in gives the margined sum
  have hT : (∑ c, Real.exp (slogit ε s x (w c))) - Real.exp (slogit ε s x (w g))
      + Real.exp (s * (cosv ε x (w g) - mg)) = ∑ c, Real.exp (rLogit ε s mg x w g c) := by
    have h1 := Finset.sum_erase_add Finset.univ (fun c => Real.exp (slogit ε s x (w c))) (Finset.mem_univ g)
    have h2 := Finset.sum_erase_add Finset.univ (fun c => Real.exp (rLogit ε s mg x w g c))
      (Finset.mem_univ g)
    have h3 : ∑ c ∈ Finset.univ.erase g, Real.exp (slogit ε s x (w c))
        = ∑ c ∈ Finset.univ.erase g, Real.exp (rLogit ε s mg x w g c) := by
      refine Finset.sum_congr rfl (fun c hc => ?_)
      rw [hl, hoff c (Finset.ne_of_mem_erase hc)]
    beta_reduce at h1 h2
    rw [hgg] at h2
    linarith
  have hTpos : 0 < ∑ c, Real.exp (rLogit ε s mg x w g c) :=
    Finset.sum_pos (fun c _ => Real.exp_pos _) ⟨g, Finset.mem_univ g⟩
  -- the margined sum is above the guard: one class off the target already contributes `exp (-s)`
  have hTge : tiny ≤ ∑ c, Real.exp (rLogit ε s mg x w g c) := by
    have h1 : Real.exp (rLogit ε s mg x w g c₀) ≤ ∑ c, Real.exp (rLogit ε s mg x w g c) :=
      Finset.single_le_sum (f := fun c => Real.exp (rLogit ε s mg x w g c))
        (fun c _ => (Real.exp_pos _).le) (Finset.mem_univ c₀)
    have h2 : Real.exp (-s) ≤ Real.exp (rLogit ε s mg x w g c₀) := by
      rw [hoff c₀ hc₀]
      apply Real.exp_le_exp.mpr
      have := neg_one_le_cosv hε x (w c₀)
      nlinarith
    linarith
  -- a common shift of the logits comes out of the logarithm
  have hlog : Real.log (∑ c, Real.exp (rLogit ε s mg x w g c - M))
      = Real.log (∑ c, Real.exp (rLogit ε s mg x w g c)) - M := by
    have hdiv : ∑ c, Real.exp (rLogit ε s mg x w g c - M)
        = (∑ c, Real.exp (rLogit ε s mg x w g c)) / Real.exp M := by
      rw [Finset.sum_div]
      exact Finset.sum_congr rfl (fun c _ => Real.exp_sub _ _)
    rw [hdiv, Real.log_div hTpos.ne' (Real.exp_pos M).ne', Real.log_exp]
  unfold kRow kRowOf rRow
  rw [hT, max_eq_left hTge, hlog, hgg]
  ring

theorem epsv_pos : 0 < epsv := by
  unfold epsv
  positivity

/-- The guard is below `exp (-64)`. -/
theorem tinyv_le : tinyv ≤ Real.exp (-64) := by
  have h1 : Real.exp 1 ≤ 68 / 25 := by
    have := Real.exp_one_lt_d9
    norm_num at this ⊢
    linarith
  have h2 : Real.exp 64 = Real.exp 1 ^ 64 := by
    have := Real.exp_nat_mul 1 64
    simpa using this
  have h3 : Real.exp 64 ≤ (68 / 25 : ℝ) ^ 64 := by
    rw [h2]
    exact pow_le_pow_left₀ (Real.exp_pos 1).le h1 64
  have htp : 0 < tinyv := by
    unfold tinyv
    positivity
  rw [Real.exp_neg, le_inv_comm₀ htp (Real.exp_pos 64)]
  refine h3.trans ?_
  unfold tinyv
  norm_num

/-- Summing over the two halves, the 25 tiles of a half and the 2000 rows of a tile is summing over the table. -/
theorem sum_tiles (f : Fin 100000 → ℝ) :
    ∑ h : Fin 2, ∑ c : Fin 25, ∑ j : Fin 2000, f (tileRow h c j) = ∑ c : Fin 100000, f c := by
  have hbij : Function.Bijective (fun p : Fin 2 × Fin 25 × Fin 2000 => tileRow p.1 p.2.1 p.2.2) := by
    rw [Fintype.bijective_iff_injective_and_card]
    constructor
    · rintro ⟨h, c, j⟩ ⟨h', c', j'⟩ heq
      have e : (h.val * 25 + c.val) * 2000 + j.val = (h'.val * 25 + c'.val) * 2000 + j'.val :=
        congrArg Fin.val heq
      have := h.isLt
      have := c.isLt
      have := j.isLt
      have := h'.isLt
      have := c'.isLt
      have := j'.isLt
      have e1 : h = h' := Fin.ext (by omega)
      have e2 : c = c' := Fin.ext (by omega)
      have e3 : j = j' := Fin.ext (by omega)
      rw [e1, e2, e3]
    · simp [Fintype.card_prod]
  rw [← Fintype.sum_bijective _ hbij (fun p => f (tileRow p.1 p.2.1 p.2.2)) f (fun _ => rfl)]
  rw [Fintype.sum_prod_type]
  refine Finset.sum_congr rfl (fun h _ => ?_)
  rw [Fintype.sum_prod_type]

end CosMargin

end
-- ==== Proof.KValue.lean ====
/-
  The kernel's run with its result named: the mean one-pass row loss of the inputs.

  The region leaves, per half of the table, the sum over that half's rows of `exp` of the scaled cosine with every row;
  the two halves together are the sum over the whole table (`sum_tiles`); the operations after the region turn that sum
  and the two per-row values computed before the region into the row loss and average it.
-/
import proofs.«425047_j72997264163312_2_alg».proof.Proof.KRegion
import proofs.«425047_j72997264163312_2_alg».proof.Proof.KHostPre
import proofs.«425047_j72997264163312_2_alg».proof.Proof.KHostTake
import proofs.«425047_j72997264163312_2_alg».proof.Proof.KTail
import proofs.«425047_j72997264163312_2_alg».proof.Proof.RealAlg

noncomputable section

namespace Cert.KernelIdeal.KV

open Cert.KernelIdeal Cert.KernelIdeal.Gen Idealize.ShloMosaic Idealize.ShloMosaic.TcCoe Idealize.ShloMosaic.ValueIdx Idealize.SL.Sem CosMargin

/-- The one-pass loss with its sum over the table split as the region makes it: two halves, 25 tiles a half, 2000
    rows a tile. -/
theorem kLoss_eq_tiles (x : XS.Idx → EReal) (g : GS.Idx → BitVec 32) (w : WS.Idx → EReal) :
    kLoss x g w = ((meanOf fun b => kRowOf 64 mgv tinyv
      (∑ h : Fin 2, ∑ t : Fin 25, ∑ j : Fin 2000,
        Real.exp (∑ d, (unit epsv (xr x b) d * 64) * unit epsv (wr w (tileRow h t j)) d))
      (slogit epsv 64 (xr x b) (wr w (gi g b))) (cosv epsv (xr x b) (wr w (gi g b))) : ℝ) : EReal) := by
  unfold kLoss kRow
  refine congrArg (fun r : Fin 512 → ℝ => ((meanOf r : ℝ) : EReal)) (funext fun b => ?_)
  refine congrArg (fun S : ℝ => kRowOf 64 mgv tinyv S (slogit epsv 64 (xr x b) (wr w (gi g b)))
    (cosv epsv (xr x b) (wr w (gi g b)))) ?_
  exact (sum_tiles fun r => Real.exp (slogit epsv 64 (xr x b) (wr w r))).symm

variable (m : (ℓ : Loc nD τ sig) → Buf (Elt Ideal) ℓ) (ρ : Dev nD → PrngReg)

/-- The result buffer after the tail, under the decoded precondition. -/
theorem result_eq (c : Dev nD) (hgood : Good (xin m c) (gin m c) (win m c)) :
    (Pipeline.afterTail₀ cfgs (dats m) 0 (V0 m) [hostOps1] c main_v47 : S_.Idx → EReal)
      = fun _ => kLoss (xin m c) (gin m c) (win m c) := by
  have hreg := region_value m c (fun b d => unit epsv (xr (xin m c) b) d * 64) (wr (win m c)) (V_v10 m c hgood)
    (fun r d => by rw [V_main_arg2]; exact hgood.hw r d)
  refine (tail_value m c _ _ _ hreg (V_v26 m c hgood) (V_v21 m c hgood)).trans ?_
  funext _
  exact (kLoss_eq_tiles _ _ _).symm

/-- Every weakly fair execution of the kernel's program terminates with its result at the mean one-pass row loss and
    its arguments unchanged. -/
theorem run (hgood : ∀ c : Dev nD, Good (xin m c) (gin m c) (win m c)) :
    θ_run defs (onTc (τ := τ) (main (F := Ideal))) ⟨m, fun _ => 0, ρ⟩ (fun r => ∀ c : Dev nD,
      r.2.mem ((c.tc : Thread nD τ).loc main_v47) = (fun _ => kLoss (xin m c) (gin m c) (win m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v47 (Pipeline.mem_restRefs_of main_v47 (by decide) (by decide))).trans (result_eq m c (hgood c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KV

end
-- ==== Proof.RefLogits.lean ====
/-
  The reference's logits, entry by entry: the scaled cosine of row `b` of the activations and row `c` of the table,
  lowered by the scaled margin at the row's target class.
-/
import proofs.«425047_j72997264163312_2_alg».proof.Proof.RefRead
import proofs.«425047_j72997264163312_2_alg».proof.Proof.Lift

noncomputable section

namespace Cert.ReferenceIdeal.RefValue

open Cert.ReferenceIdeal Cert.ReferenceIdeal.Gen Idealize.ShloMosaic Idealize.ShloMosaic.ValueIdx CosMargin

theorem tableRow_idx (c : Fin 100000) (d k : Fin 512) :
    ReadP.idx_main_v1 (ReadP.idx_main_v2 (ReadP.idx_main_v6 (ix2 c d))) k = ix2 c k :=
  funext fun a => Fin.ext (by match a with | ⟨0, _⟩ => rfl | ⟨1, _⟩ => rfl)

theorem tableUnit_apply (w : WS.Idx → EReal) (hw : ∀ c d, w (ix2 c d) = ((wr w c d : ℝ) : EReal))
    (c : Fin 100000) (d : Fin 512) :
    ReadP.val_main_v7 (F := Ideal) w (ix2 c d) = ((unit epsv (wr w c) d : ℝ) : EReal) := by
  rw [ReadP.val_main_v7_apply, ReadP.val_main_v6_apply, ReadP.val_main_v5_apply, ReadP.val_main_v3_apply,
    ReadP.val_main_v2_apply, ReadP.val_main_v4_apply, ReadP.val_main_cst_0_apply, ReadP.val_main_v1_apply,
    ReadP.val_main_cst_apply]
  simp only [ReadP.val_main_v0_apply, Ideal.hostDivf_def, Ideal.maximumf_def, Ideal.hostUnary_sqrt_def,
    Ideal.ofBits_def, Ideal.mulf_def, tableRow_idx]
  rw [ofBits_eps, hw c d]
  refine unit_coe (wr w c) d _ ?_
  rw [Ideal.ofBits_zero_f32, zero_add, ← sum_coe]
  refine Finset.sum_congr rfl fun k _ => ?_
  rw [hw c k, EReal.coe_mul]

theorem actRow_idx (b : Fin 512) (d k : Fin 512) :
    ReadP.idx_main_v9 (ReadP.idx_main_v10 (ReadP.idx_main_v14 (ix2 b d))) k = ix2 b k :=
  funext fun a => Fin.ext (by match a with | ⟨0, _⟩ => rfl | ⟨1, _⟩ => rfl)

theorem actUnit_apply (x : XS.Idx → EReal) (hx : ∀ b d, x (ix2 b d) = ((xr x b d : ℝ) : EReal))
    (b : Fin 512) (d : Fin 512) :
    ReadP.val_main_v15 (F := Ideal) x (ix2 b d) = ((unit epsv (xr x b) d : ℝ) : EReal) := by
  rw [ReadP.val_main_v15_apply, ReadP.val_main_v14_apply, ReadP.val_main_v13_apply, ReadP.val_main_v11_apply,
    ReadP.val_main_v10_apply, ReadP.val_main_v12_apply, ReadP.val_main_cst_2_apply, ReadP.val_main_v9_apply,
    ReadP.val_main_cst_1_apply]
  simp only [ReadP.val_main_v8_apply, Ideal.hostDivf_def, Ideal.maximumf_def, Ideal.hostUnary_sqrt_def,
    Ideal.ofBits_def, Ideal.mulf_def, actRow_idx]
  rw [ofBits_eps, hx b d]
  refine unit_coe (xr x b) d _ ?_
  rw [Ideal.ofBits_zero_f32, zero_add, ← sum_coe]
  refine Finset.sum_congr rfl fun k _ => ?_
  rw [hx b k, EReal.coe_mul]

theorem cosLhs_idx (b : Fin 512) (c : Fin 100000) (k : Fin 512) :
    ReadP.lidx_main_v16 (ix2 b c) k = ix2 b k :=
  funext fun a => Fin.ext (by match a with | ⟨0, _⟩ => rfl | ⟨1, _⟩ => rfl)

theorem cosRhs_idx (b : Fin 512) (c : Fin 100000) (k : Fin 512) :
    ReadP.ridx_main_v16 (ix2 b c) k = ix2 c k :=
  funext fun a => Fin.ext (by match a with | ⟨0, _⟩ => rfl | ⟨1, _⟩ => rfl)

theorem cos_apply (x : XS.Idx → EReal) (w : WS.Idx → EReal)
    (hx : ∀ b d, x (ix2 b d) = ((xr x b d : ℝ) : EReal)) (hw : ∀ c d, w (ix2 c d) = ((wr w c d : ℝ) : EReal))
    (b : Fin 512) (c : Fin 100000) :
    ReadP.val_main_v16 (F := Ideal) x w (ix2 b c) = ((cosv epsv (xr x b) (wr w c) : ℝ) : EReal) := by
  rw [ReadP.val_main_v16_apply]
  unfold cosv
  rw [← sum_coe]
  refine Finset.sum_congr rfl fun k _ => ?_
  rw [cosLhs_idx, cosRhs_idx, actUnit_apply x hx, tableUnit_apply w hw, EReal.coe_mul]

theorem scat_window (j : S512.Idx) (a : Fin 2) :
    scatter_S512x100000_S512x2_S512_n_01_01_1.window j a = 0 := by
  unfold ScatterDims.window
  refine dif_neg fun h => ?_
  have e : scatter_S512x100000_S512x2_S512_n_01_01_1.sKept = [] := by decide
  rw [e] at h
  exact List.not_mem_nil h

theorem scat_start0 (k : Fin 512) (idx : IVec S512x2 32) :
    scatter_S512x100000_S512x2_S512_n_01_01_1.start (ix1 k) idx 0 = (idx (ix2 k (0 : Fin 2))).toInt := by
  unfold ScatterDims.start
  rw [dif_pos (show (0 : Fin S512x100000.rank) ∈ scatter_S512x100000_S512x2_S512_n_01_01_1.scatterDimsToOperandDims by decide)]
  refine congrArg (fun i => (idx i).toInt) ?_
  funext b; refine Fin.ext ?_
  match b with
  | ⟨0, _⟩ => rfl
  | ⟨1, _⟩ => rfl

theorem scat_start1 (k : Fin 512) (idx : IVec S512x2 32) :
    scatter_S512x100000_S512x2_S512_n_01_01_1.start (ix1 k) idx 1 = (idx (ix2 k (1 : Fin 2))).toInt := by
  unfold ScatterDims.start
  rw [dif_pos (show (1 : Fin S512x100000.rank) ∈ scatter_S512x100000_S512x2_S512_n_01_01_1.scatterDimsToOperandDims by decide)]
  refine congrArg (fun i => (idx i).toInt) ?_
  funext b; refine Fin.ext ?_
  match b with
  | ⟨0, _⟩ => rfl
  | ⟨1, _⟩ => rfl

theorem scat_result_some (k : Fin 512) (idx : IVec S512x2 32) (c : Fin 100000)
    (h0 : (idx (ix2 k (0 : Fin 2))).toInt = (k.val : Int)) (h1 : (idx (ix2 k (1 : Fin 2))).toInt = (c.val : Int)) :
    scatter_S512x100000_S512x2_S512_n_01_01_1.resultIdx? (ix1 k) idx = some (ix2 k c) := by
  have hs : ∀ a : Fin 2, scatter_S512x100000_S512x2_S512_n_01_01_1.start (ix1 k) idx a
      + (scatter_S512x100000_S512x2_S512_n_01_01_1.window (ix1 k) a : Int) = (((ix2 k c a).val : Nat) : Int) := by
    intro a
    rw [scat_window]
    match a with
    | ⟨0, _⟩ => rw [show (⟨0, by decide⟩ : Fin 2) = 0 from rfl, scat_start0, h0]; rfl
    | ⟨1, _⟩ => rw [show (⟨1, by decide⟩ : Fin 2) = 1 from rfl, scat_start1, h1]; rfl
  unfold ScatterDims.resultIdx?
  rw [dif_pos (fun a => by rw [hs a]; exact ⟨Int.natCast_nonneg _, Int.ofNat_lt.mpr (ix2 k c a).isLt⟩)]
  refine congrArg some (funext fun a => Fin.ext ?_)
  show (scatter_S512x100000_S512x2_S512_n_01_01_1.start (ix1 k) idx a
      + (scatter_S512x100000_S512x2_S512_n_01_01_1.window (ix1 k) a : Int)).toNat = (ix2 k c a).val
  rw [hs a]; exact Int.toNat_natCast _

/-- A word below `2 ^ 31` is not negative read signed, so the select on `· < 0` keeps it. -/
theorem select_neg_keep (v a : BitVec 32) (hv : v.toNat < 2 ^ 31) :
    Scalar.select (IntOp.cmpi .slt v 0#32) a v = v := by
  have hn : ¬ IntOp.cmpi .slt v 0#32 = 1#1 := by
    rw [IntOp.cmpi_slt, BitVec.toInt_eq_toNat_cond, if_pos (by omega)]
    have h0 : (0#32 : BitVec 32).toInt = 0 := by decide
    rw [h0]; omega
  exact if_neg hn

theorem toInt_of_small (v : BitVec 32) (hv : v.toNat < 2 ^ 31) : v.toInt = (v.toNat : Int) := by
  rw [BitVec.toInt_eq_toNat_cond, if_pos (by omega)]

/-- Column 0 of the scatter indices: the row number. -/
theorem scatIdx_col0 (g : GS.Idx → BitVec 32) (k : Fin 512) :
    ReadP.val_main_v30 (F := Ideal) g (ix2 k (0 : Fin 2)) = BitVec.ofNat 32 k.val := by
  unfold ReadP.val_main_v30
  rw [concatenate_pair_apply_left (1 : Fin S512x2.rank) _ _ concatenates_S512x1_S512x1_S512x2_d1 (ix2 k (0 : Fin 2)) rfl
    (ix2 k (0 : Fin 1)) (fun b => by match b with | ⟨0, _⟩ => rfl | ⟨1, _⟩ => rfl)]
  rw [ReadP.val_main_v28_apply, ReadP.val_main_v22_apply, ReadP.val_main_v19_apply, ReadP.val_main_v18_apply,
    ReadP.val_main_c_apply, ReadP.val_main_v17_apply]
  exact select_neg_keep _ _ (by
    show (BitVec.ofNat 32 k.val).toNat < 2 ^ 31
    rw [BitVec.toNat_ofNat]; have := k.isLt; omega)

/-- Column 1 of the scatter indices: the row's target word, when it is not negative read signed. -/
theorem scatIdx_col1 (g : GS.Idx → BitVec 32) (k : Fin 512) (hg : (g (ix1 k)).toNat < 100000) :
    ReadP.val_main_v30 (F := Ideal) g (ix2 k (1 : Fin 2)) = g (ix1 k) := by
  unfold ReadP.val_main_v30
  rw [concatenate_pair_apply_right (1 : Fin S512x2.rank) _ _ concatenates_S512x1_S512x1_S512x2_d1 (ix2 k (1 : Fin 2)) rfl rfl
    (ix2 k (0 : Fin 1)) (fun b hb => by match b with | ⟨0, _⟩ => rfl | ⟨1, _⟩ => exact absurd rfl hb) rfl]
  rw [ReadP.val_main_v29_apply, ReadP.val_main_v27_apply, ReadP.val_main_v24_apply, ReadP.val_main_v23_apply,
    ReadP.val_main_c_4_apply]
  have e : ReadP.idx_main_v29 (ix2 k (0 : Fin 1)) = ix1 k :=
    funext fun a => Fin.ext (by match a with | ⟨0, _⟩ => rfl)
  rw [e]
  exact select_neg_keep _ _ (by omega)

/-- The updates that land on entry `(b, c)`, when update `k` lands on `(k, t k)`: update `b` alone, and only if `c = t b`. -/
theorem scat_sum (idx : IVec S512x2 32) (upd : S512.Idx → EReal) (t : Fin 512 → Fin 100000)
    (hres : ∀ k : Fin 512, scatter_S512x100000_S512x2_S512_n_01_01_1.resultIdx? (ix1 k) idx = some (ix2 k (t k)))
    (b : Fin 512) (c : Fin 100000) :
    (∑ j ∈ Finset.univ.filter (fun j => scatter_S512x100000_S512x2_S512_n_01_01_1.resultIdx? j idx = some (ix2 b c)), upd j)
      = if c = t b then upd (ix1 b) else 0 := by
  rw [Finset.sum_filter, Finset.sum_eq_single (ix1 b)]
  · rw [hres b]
    by_cases hc : c = t b
    · rw [if_pos hc, if_pos (by rw [hc])]
    · rw [if_neg hc, if_neg]
      intro h
      have h1 := congrFun (Option.some.inj h) (1 : Fin 2)
      exact hc h1.symm
  · intro j _ hj
    obtain ⟨k, rfl⟩ : ∃ k : Fin 512, j = ix1 k := ⟨j 0, eq_ix1 j⟩
    rw [hres k, if_neg]
    intro h
    have h0 : k = b := congrFun (Option.some.inj h) (0 : Fin 2)
    exact hj (by rw [h0])
  · intro hb
    exact absurd (Finset.mem_univ _) hb

/-- Under the precondition update `k` of the scatter lands on entry `(k, g k)`. -/
theorem scat_lands (x : XS.Idx → EReal) (g : GS.Idx → BitVec 32) (w : WS.Idx → EReal) (h : Good x g w) (k : Fin 512) :
    scatter_S512x100000_S512x2_S512_n_01_01_1.resultIdx? (ix1 k) (ReadP.val_main_v30 (F := Ideal) g)
      = some (ix2 k (gi g k)) := by
  have hk : (BitVec.ofNat 32 k.val).toNat = k.val := by
    rw [BitVec.toNat_ofNat]; have := k.isLt; omega
  refine scat_result_some k _ (gi g k) ?_ ?_
  · rw [scatIdx_col0, toInt_of_small _ (by rw [hk]; have := k.isLt; omega), hk]
  · rw [scatIdx_col1 g k (h.hg k), toInt_of_small _ (by have := h.hg k; omega)]
    show ((g (ix1 k)).toNat : Int) = (((g (ix1 k)).toNat % 100000 : Nat) : Int)
    rw [Nat.mod_eq_of_lt (h.hg k)]

/-- Entry `(b, c)` of the scaled, margined cosine matrix. -/
theorem logits_apply (x : XS.Idx → EReal) (g : GS.Idx → BitVec 32) (w : WS.Idx → EReal) (h : Good x g w)
    (b : Fin 512) (c : Fin 100000) :
    Cert.ReferenceIdeal.ReadP.val_main_v34 (F := Ideal) x g w (ix2 b c)
      = ((rLogit epsv 64 mgv (xr x b) (wr w) (gi g b) c : ℝ) : EReal) := by
  have hres := scat_lands x g w h
  have hc := cos_apply x w h.hx h.hw b c
  rw [ReadP.val_main_v34_apply, ReadP.val_main_v33_apply, ReadP.val_main_cst_7_apply]
  unfold ReadP.val_main_v32
  generalize ReadP.val_main_v16 (F := Ideal) x w = y16 at hc
  generalize ReadP.val_main_v30 (F := Ideal) g = y30 at hres
  simp only [Host.scatterAdd, Ideal.hostScatterAdd_def, Ideal.hostScatterAdd, Ideal.ofBits_def, Ideal.mulf_def]
  rw [scat_sum y30 _ (gi g) hres b c, hc, ofBits_64, ReadP.val_main_v31_apply, ReadP.val_main_cst_6_apply]
  simp only [Ideal.ofBits_def]
  rw [ofBits_neg_mg]
  unfold rLogit
  by_cases hcg : c = gi g b
  · rw [if_pos hcg, if_pos hcg, ← EReal.coe_add, ← EReal.coe_mul]
  · rw [if_neg hcg, if_neg hcg, add_zero, add_zero, ← EReal.coe_mul]

end Cert.ReferenceIdeal.RefValue

end
-- ==== Proof.RefValue.lean ====
/-
  The reference's result: the mean over the rows of the shifted log-softmax loss at the row's target class.
-/
import proofs.«425047_j72997264163312_2_alg».proof.Proof.RefLogits
import Idealize.ShloMosaic.Lib.ValueIdxRank1
import Idealize.ShloMosaic.Lib.StableHlo.Predicate

noncomputable section

namespace Cert.ReferenceIdeal.RefValue

open Cert.ReferenceIdeal Cert.ReferenceIdeal.Gen Idealize.ShloMosaic Idealize.ShloMosaic.ValueIdx CosMargin

/-- A maximum folded from `⊥` over a nonempty family of reals is a real. -/
theorem exists_fold_max_coe {ι : Type} (s : Finset ι) (hs : s.Nonempty) (f : ι → ℝ) :
    ∃ M : ℝ, s.fold max (⊥ : EReal) (fun k => ((f k : ℝ) : EReal)) = ((M : ℝ) : EReal) := by
  induction hs using Finset.Nonempty.cons_induction with
  | singleton a => exact ⟨f a, by rw [Finset.fold_singleton]; exact max_eq_left bot_le⟩
  | cons a s ha hs ih =>
    obtain ⟨M, hM⟩ := ih
    exact ⟨max (f a) M, by rw [Finset.fold_cons, hM, max_coe]⟩

/-- Row `b` of the logits with column `k` put back is entry `(b, k)`. -/
theorem lift_row (hR : S512x100000.Reduces [1] S512) (b : Fin 512) (k : Fin (S512x100000.size 1)) :
    hR.lift (ix1 b) k = ix2 b (⟨k.val, k.isLt⟩ : Fin 100000) := by
  funext c; apply Fin.ext
  fin_cases c <;> rfl

/-- The largest logit of row `b` is a real number. -/
theorem rowmax_coe (x : XS.Idx → EReal) (g : GS.Idx → BitVec 32) (w : WS.Idx → EReal) (h : Good x g w) (b : Fin 512) :
    ∃ M : ℝ, Cert.ReferenceIdeal.ReadP.val_main_call0_v2 (F := Ideal) x g w (ix1 b) = ((M : ℝ) : EReal) := by
  have hR : S512x100000.Reduces [1] S512 := by decide
  have hf : (Cert.ReferenceIdeal.ReadP.val_main_v34 (F := Ideal) x g w ∘ hR.lift (ix1 b))
      = fun k : Fin (S512x100000.size 1) =>
          ((rLogit epsv 64 mgv (xr x b) (wr w) (gi g b) (⟨k.val, k.isLt⟩ : Fin 100000) : ℝ) : EReal) :=
    funext fun k => by rw [Function.comp_apply, lift_row hR b k, logits_apply x g w h]
  obtain ⟨M, hM⟩ := exists_fold_max_coe (Finset.univ : Finset (Fin (S512x100000.size 1)))
    ⟨⟨0, by decide⟩, Finset.mem_univ _⟩
    (fun k => rLogit epsv 64 mgv (xr x b) (wr w) (gi g b) (⟨k.val, k.isLt⟩ : Fin 100000))
  refine ⟨M, ?_⟩
  rw [Cert.ReferenceIdeal.ReadP.val_main_call0_v2_apply, Cert.ReferenceIdeal.ReadP.val_main_call0_v1_apply,
    Cert.ReferenceIdeal.ReadP.val_main_call0_cst_0_apply]
  unfold Cert.ReferenceIdeal.ReadP.val_main_call0_v0
  rw [Host.reduce_eq_fold_single FloatOps.maximumf _ _ reducesTo_S512x100000_S512_d1 hR h_S_, hf,
    Cert.ReferenceIdeal.ReadP.val_main_call0_cst_apply]
  have e : (FloatOps.ofBits (F := Ideal) .f32 0xFF800000#32) = (⊥ : EReal) := ofBits_neg_inf
  rw [e]
  refine Eq.trans ?_ (max_eq_right (bot_le : (⊥ : EReal) ≤ ((M : ℝ) : EReal)))
  exact congrArg (fun y : EReal => max (⊥ : EReal) y) hM

section Stages

variable (x : XS.Idx → EReal) (g : GS.Idx → BitVec 32) (w : WS.Idx → EReal) (h : Good x g w) (M : Fin 512 → ℝ)
  (hM : ∀ b : Fin 512, Cert.ReferenceIdeal.ReadP.val_main_call0_v2 (F := Ideal) x g w (ix1 b) = ((M b : ℝ) : EReal))

/-- Logit `c` of row `b`. -/
abbrev rowLogit (b : Fin 512) (c : Fin 100000) : ℝ := rLogit epsv 64 mgv (xr x b) (wr w) (gi g b) c

include h hM

/-- Entry `(b, c)` of the logits less the row's maximum. -/
theorem shifted_apply (b : Fin 512) (c : Fin 100000) :
    Cert.ReferenceIdeal.ReadP.val_main_call0_v5 (F := Ideal) x g w (ix2 b c) = ((rowLogit x g w b c - M b : ℝ) : EReal) := by
  have e : Cert.ReferenceIdeal.ReadP.idx_main_call0_v3 (Cert.ReferenceIdeal.ReadP.idx_main_call0_v4 (ix2 b c)) = ix1 b := by
    funext a; match a with | ⟨0, _⟩ => rfl
  rw [Cert.ReferenceIdeal.ReadP.val_main_call0_v5_apply, Cert.ReferenceIdeal.ReadP.val_main_call0_v4_apply,
    Cert.ReferenceIdeal.ReadP.val_main_call0_v3_apply, e, hM b, logits_apply x g w h, Ideal.subf_def, ← EReal.coe_sub]

/-- Its exponential. -/
theorem expd_apply (b : Fin 512) (c : Fin 100000) :
    Cert.ReferenceIdeal.ReadP.val_main_call0_v6 (F := Ideal) x g w (ix2 b c) = ((Real.exp (rowLogit x g w b c - M b) : ℝ) : EReal) := by
  rw [Cert.ReferenceIdeal.ReadP.val_main_call0_v6_apply, shifted_apply x g w h M hM, Ideal.hostUnary_exp_def, exp_coe']

/-- The row's sum of exponentials. -/
theorem sumexp_apply (b : Fin 512) :
    Cert.ReferenceIdeal.ReadP.val_main_call0_v7 (F := Ideal) x g w (ix1 b)
      = ((∑ c : Fin 100000, Real.exp (rowLogit x g w b c - M b) : ℝ) : EReal) := by
  have e : ∀ k : Fin 100000, Cert.ReferenceIdeal.ReadP.idx_main_call0_v7 (ix1 b) k = ix2 b k := fun k => by
    funext a; match a with | ⟨0, _⟩ => rfl | ⟨1, _⟩ => rfl
  rw [Cert.ReferenceIdeal.ReadP.val_main_call0_v7_apply, Cert.ReferenceIdeal.ReadP.val_main_call0_cst_1_apply,
    Ideal.ofBits_def, Ideal.ofBits_zero_f32, zero_add, ← sum_coe]
  exact Finset.sum_congr rfl fun k _ => by rw [e k, expd_apply x g w h M hM]

/-- The logarithm of the row's sum of exponentials. -/
theorem logsum_apply (b : Fin 512) (c : Fin 100000) :
    Cert.ReferenceIdeal.ReadP.val_main_call0_v10 (F := Ideal) x g w (ix2 b c)
      = ((Real.log (∑ c : Fin 100000, Real.exp (rowLogit x g w b c - M b)) : ℝ) : EReal) := by
  have e : Cert.ReferenceIdeal.ReadP.idx_main_call0_v8 (Cert.ReferenceIdeal.ReadP.idx_main_call0_v10 (ix2 b c)) = ix1 b := by
    funext a; match a with | ⟨0, _⟩ => rfl
  have hpos : 0 < ∑ c : Fin 100000, Real.exp (rowLogit x g w b c - M b) :=
    Finset.sum_pos (fun c _ => Real.exp_pos _) ⟨⟨0, by norm_num⟩, Finset.mem_univ _⟩
  rw [Cert.ReferenceIdeal.ReadP.val_main_call0_v10_apply, Cert.ReferenceIdeal.ReadP.val_main_call0_v9_apply,
    Cert.ReferenceIdeal.ReadP.val_main_call0_v8_apply, e, sumexp_apply x g w h M hM, Ideal.hostUnary_log_def, log_coe_of_pos _ hpos]

/-- Entry `(b, c)` of the log-softmax. -/
theorem logsoftmax_apply (b : Fin 512) (c : Fin 100000) :
    Cert.ReferenceIdeal.ReadP.val_main_v35 (F := Ideal) x g w (ix2 b c)
      = (((rowLogit x g w b c - M b) - Real.log (∑ c : Fin 100000, Real.exp (rowLogit x g w b c - M b)) : ℝ) : EReal) := by
  rw [Cert.ReferenceIdeal.ReadP.val_main_v35_apply, shifted_apply x g w h M hM, logsum_apply x g w h M hM, Ideal.subf_def,
    ← EReal.coe_sub]

end Stages

/-! ## The gather: entry `b` reads the log-softmax at `(b, g b)` -/

/-- A 32-bit word below 2³¹ is not negative read signed. -/
theorem slt_zero_of_small (a : BitVec 32) (ha : a.toNat < 2 ^ 31) : IntOp.cmpi .slt a 0#32 = 0#1 :=
  eq_zero_of_ne_one fun h1 =>
    Nat.not_lt_zero _ ((Idealize.ShloMosaic.StableHlo.Predicate.slt_iff_toNat ha (by decide)).1 h1)

/-- The first column of the start indices holds the row numbers. -/
theorem rowcol_apply (b : Fin 512) :
    Cert.ReferenceIdeal.ReadP.val_main_v46 (F := Ideal) (ix2 b (0 : Fin 1)) = BitVec.ofNat 32 b.val := by
  have e : Cert.ReferenceIdeal.ReadP.idx_main_v46 (ix2 b (0 : Fin 1)) = ix1 b := by
    funext a; match a with | ⟨0, _⟩ => rfl
  have hb : (BitVec.ofNat 32 ((ix1 b : S512.Idx) 0).val).toNat < 2 ^ 31 := by
    show (BitVec.ofNat 32 b.val).toNat < 2 ^ 31
    rw [BitVec.toNat_ofNat]; have := b.isLt; omega
  rw [Cert.ReferenceIdeal.ReadP.val_main_v46_apply, e, Cert.ReferenceIdeal.ReadP.val_main_v40_apply,
    Cert.ReferenceIdeal.ReadP.val_main_v37_apply, Cert.ReferenceIdeal.ReadP.val_main_v17_apply,
    Cert.ReferenceIdeal.ReadP.val_main_v36_apply, Cert.ReferenceIdeal.ReadP.val_main_c_8_apply, slt_zero_of_small _ hb, select_zero]

/-- The second column of the start indices holds the target classes. -/
theorem tgtcol_apply (g : GS.Idx → BitVec 32) (b : Fin 512) (hg : (g (ix1 b)).toNat < 100000) :
    Cert.ReferenceIdeal.ReadP.val_main_v47 (F := Ideal) g (ix2 b (0 : Fin 1)) = g (ix1 b) := by
  have e : Cert.ReferenceIdeal.ReadP.idx_main_v47 (ix2 b (0 : Fin 1)) = ix1 b := by
    funext a; match a with | ⟨0, _⟩ => rfl
  rw [Cert.ReferenceIdeal.ReadP.val_main_v47_apply, e, Cert.ReferenceIdeal.ReadP.val_main_v45_apply,
    Cert.ReferenceIdeal.ReadP.val_main_v42_apply, Cert.ReferenceIdeal.ReadP.val_main_v41_apply,
    Cert.ReferenceIdeal.ReadP.val_main_c_10_apply, slt_zero_of_small _ (by omega), select_zero]

/-- Row `b` of the start indices, first entry. -/
theorem pair_col0 (g : GS.Idx → BitVec 32) (b : Fin 512) :
    Cert.ReferenceIdeal.ReadP.val_main_v48 (F := Ideal) g (ix2 b (0 : Fin 2)) = BitVec.ofNat 32 b.val := by
  unfold Cert.ReferenceIdeal.ReadP.val_main_v48
  rw [concatenate_pair_apply_left (t := S512x2) (s₁ := S512x1) (s₂ := S512x1) (1 : Fin 2) _ _ concatenates_S512x1_S512x1_S512x2_d1 (ix2 b (0 : Fin 2)) rfl
    (ix2 b (0 : Fin 1)) (fun a => by match a with | ⟨0, _⟩ => rfl | ⟨1, _⟩ => rfl)]
  exact rowcol_apply b

/-- Row `b` of the start indices, second entry. -/
theorem pair_col1 (g : GS.Idx → BitVec 32) (b : Fin 512) (hg : (g (ix1 b)).toNat < 100000) :
    Cert.ReferenceIdeal.ReadP.val_main_v48 (F := Ideal) g (ix2 b (1 : Fin 2)) = g (ix1 b) := by
  unfold Cert.ReferenceIdeal.ReadP.val_main_v48
  rw [concatenate_pair_apply_right (t := S512x2) (s₁ := S512x1) (s₂ := S512x1) (1 : Fin 2) _ _ concatenates_S512x1_S512x1_S512x2_d1 (ix2 b (1 : Fin 2)) rfl rfl
    (ix2 b (0 : Fin 1)) (fun a ha => by match a with | ⟨0, _⟩ => rfl | ⟨1, _⟩ => exact absurd rfl ha) rfl]
  exact tgtcol_apply g b hg

/-- The operand index the gather reads at `b`, on the rows' axis: the first start index, in range. -/
theorem targetGather_coord0 (idx : IVec S512x2 32) (b : Fin 512) (h0 : idx (ix2 b (0 : Fin 2)) = BitVec.ofNat 32 b.val) :
    (gather_S512x100000_S512x2_S512_n_01_n_n_01_1_11.operandIdx (ix1 b) idx (0 : Fin 2)).val = b.val := by
  show gather_S512x100000_S512x2_S512_n_01_n_n_01_1_11.start (ix1 b) idx (0 : Fin 2)
      + gather_S512x100000_S512x2_S512_n_01_n_n_01_1_11.batchCoord (ix1 b) (0 : Fin 2)
      + gather_S512x100000_S512x2_S512_n_01_n_n_01_1_11.offCoord (ix1 b) (0 : Fin 2) = b.val
  rw [GatherDims.batchCoord_eq_zero _ _ _ List.not_mem_nil,
    GatherDims.offCoord_eq_zero _ _ _ (fun hk => ((GatherDims.mem_sKept _ _).mp hk).1
      (show (0 : Fin 2) ∈ [(0 : Fin 2), 1] from List.mem_cons_self))]
  simp only [Nat.add_zero]
  unfold GatherDims.start
  rw [dif_pos (show (0 : Fin 2) ∈ gather_S512x100000_S512x2_S512_n_01_n_n_01_1_11.startIndexMap from
    (List.mem_cons_self : (0 : Fin 2) ∈ [(0 : Fin 2), 1]))]
  have hsi : gather_S512x100000_S512x2_S512_n_01_n_n_01_1_11.siIdx (ix1 b)
      ⟨List.idxOf (0 : Fin 2) gather_S512x100000_S512x2_S512_n_01_n_n_01_1_11.startIndexMap,
        List.idxOf_lt_length_iff.2 (List.mem_cons_self : (0 : Fin 2) ∈ [(0 : Fin 2), 1])⟩ = ix2 b (0 : Fin 2) := by
    funext d; refine Fin.ext ?_
    match d with
    | ⟨0, _⟩ => rfl
    | ⟨1, _⟩ => rfl
  rw [hsi, h0, Idealize.ShloMosaic.StableHlo.Predicate.toInt_ofNat_small b.val (by have := b.isLt; omega), Int.toNat_natCast]
  show min b.val (512 - 1) = b.val
  have := b.isLt; omega

/-- The operand index the gather reads at `b`, on the classes' axis: the second start index, in range. -/
theorem targetGather_coord1 (idx : IVec S512x2 32) (b : Fin 512) (c : Fin 100000) (h1 : (idx (ix2 b (1 : Fin 2))).toNat = c.val) :
    (gather_S512x100000_S512x2_S512_n_01_n_n_01_1_11.operandIdx (ix1 b) idx (1 : Fin 2)).val = c.val := by
  show gather_S512x100000_S512x2_S512_n_01_n_n_01_1_11.start (ix1 b) idx (1 : Fin 2)
      + gather_S512x100000_S512x2_S512_n_01_n_n_01_1_11.batchCoord (ix1 b) (1 : Fin 2)
      + gather_S512x100000_S512x2_S512_n_01_n_n_01_1_11.offCoord (ix1 b) (1 : Fin 2) = c.val
  rw [GatherDims.batchCoord_eq_zero _ _ _ List.not_mem_nil,
    GatherDims.offCoord_eq_zero _ _ _ (fun hk => ((GatherDims.mem_sKept _ _).mp hk).1
      (show (1 : Fin 2) ∈ [(0 : Fin 2), 1] from List.mem_cons_of_mem _ List.mem_cons_self))]
  simp only [Nat.add_zero]
  unfold GatherDims.start
  rw [dif_pos (show (1 : Fin 2) ∈ gather_S512x100000_S512x2_S512_n_01_n_n_01_1_11.startIndexMap from
    (List.mem_cons_of_mem _ List.mem_cons_self : (1 : Fin 2) ∈ [(0 : Fin 2), 1]))]
  have hsi : gather_S512x100000_S512x2_S512_n_01_n_n_01_1_11.siIdx (ix1 b)
      ⟨List.idxOf (1 : Fin 2) gather_S512x100000_S512x2_S512_n_01_n_n_01_1_11.startIndexMap,
        List.idxOf_lt_length_iff.2 (List.mem_cons_of_mem _ List.mem_cons_self : (1 : Fin 2) ∈ [(0 : Fin 2), 1])⟩
      = ix2 b (1 : Fin 2) := by
    funext d; refine Fin.ext ?_
    match d with
    | ⟨0, _⟩ => rfl
    | ⟨1, _⟩ => rfl
  have hlt : (idx (ix2 b (1 : Fin 2))).toNat < 2 ^ 31 := by rw [h1]; have := c.isLt; omega
  rw [hsi, Idealize.ShloMosaic.StableHlo.Predicate.toInt_eq_toNat_of_lt hlt, Int.toNat_natCast, h1]
  show min c.val (100000 - 1) = c.val
  have := c.isLt; omega

/-- The gather read at `b`: with the start indices of row `b` the pair `(b, c)`, both in range, it reads entry `(b, c)`. -/
theorem targetGather_apply {α : Type} (y : S512x100000.Idx → α) (idx : IVec S512x2 32) (b : Fin 512) (c : Fin 100000)
    (h0 : idx (ix2 b (0 : Fin 2)) = BitVec.ofNat 32 b.val) (h1 : (idx (ix2 b (1 : Fin 2))).toNat = c.val) :
    Host.gather gather_S512x100000_S512x2_S512_n_01_n_n_01_1_11 y idx (ix1 b) = y (ix2 b c) := by
  unfold Host.gather
  congr 1
  funext a
  refine Fin.ext ?_
  match a with
  | ⟨0, _⟩ => exact targetGather_coord0 idx b h0
  | ⟨1, _⟩ => exact targetGather_coord1 idx b c h1

section Mean

variable (x : XS.Idx → EReal) (g : GS.Idx → BitVec 32) (w : WS.Idx → EReal) (h : Good x g w) (M : Fin 512 → ℝ)
  (hM : ∀ b : Fin 512, Cert.ReferenceIdeal.ReadP.val_main_call0_v2 (F := Ideal) x g w (ix1 b) = ((M b : ℝ) : EReal))

include h hM

/-- Entry `b` of the gathered and negated vector is row `b`'s loss. -/
theorem rowloss_apply (b : Fin 512) :
    Cert.ReferenceIdeal.ReadP.val_main_v50 (F := Ideal) x g w (ix1 b)
      = ((rRow epsv 64 mgv (M b) (xr x b) (wr w) (gi g b) : ℝ) : EReal) := by
  have hgb : (g (ix1 b)).toNat < 100000 := h.hg b
  have hc : (Cert.ReferenceIdeal.ReadP.val_main_v48 (F := Ideal) g (ix2 b (1 : Fin 2))).toNat = (gi g b).val := by
    rw [pair_col1 g b hgb]; exact (Nat.mod_eq_of_lt hgb).symm
  rw [Cert.ReferenceIdeal.ReadP.val_main_v50_apply]
  unfold Cert.ReferenceIdeal.ReadP.val_main_v49
  rw [targetGather_apply _ _ b (gi g b) (pair_col0 g b) hc, logsoftmax_apply x g w h M hM, Ideal.hostNegf_def, Ideal.negf_def,
    ← EReal.coe_neg]
  rfl

/-- The result, given the row maxima as reals. -/
theorem ref_value_of_rowmax :
    Cert.ReferenceIdeal.ReadP.val_main_v52 (F := Ideal) x g w = fun _ => rLoss M x g w := by
  funext i
  have hsum : (∑ j : S512.Idx, Cert.ReferenceIdeal.ReadP.val_main_v50 (F := Ideal) x g w j)
      = ((∑ b : Fin 512, rRow epsv 64 mgv (M b) (xr x b) (wr w) (gi g b) : ℝ) : EReal) := by
    refine ((Equiv.sum_comp (idxEquiv1 (n := 512)).symm
      (Cert.ReferenceIdeal.ReadP.val_main_v50 (F := Ideal) x g w)).symm).trans ?_
    rw [← sum_coe]
    exact Finset.sum_congr rfl fun b _ => rowloss_apply x g w h M hM b
  rw [Cert.ReferenceIdeal.ReadP.val_main_v52_apply, Cert.ReferenceIdeal.ReadP.val_main_v51_apply,
    Cert.ReferenceIdeal.ReadP.val_main_cst_12_apply, Cert.ReferenceIdeal.ReadP.val_main_cst_13_apply, hsum,
    Ideal.ofBits_def, Ideal.ofBits_def, Ideal.ofBits_zero_f32, zero_add, ofBits_512, Ideal.hostDivf_def,
    div_coe_coe _ _ (by norm_num)]
  rfl

end Mean

/-- The reference's result is the mean shifted log-softmax row loss, each row shifted by a real (its largest logit). -/
theorem ref_value (x : XS.Idx → EReal) (g : GS.Idx → BitVec 32) (w : WS.Idx → EReal) (h : Good x g w) :
    ∃ M : Fin 512 → ℝ, Cert.ReferenceIdeal.ReadP.val_main_v52 (F := Ideal) x g w = fun _ => rLoss M x g w := by
  choose M hM using rowmax_coe x g w h
  exact ⟨M, ref_value_of_rowmax x g w h M hM⟩

end Cert.ReferenceIdeal.RefValue

end
-- ==== Proof.RefRunHand.lean ====
/-
  The reference program's run: every weakly fair execution of its @main — a straight line of 83 host operations —
  terminates with the result buffer at the last operation's value as a function of the three arguments (the stages
  `val_<buffer>`, one per operation) and the arguments unchanged. The line is cut into consecutive stretches; each
  stretch's results are read off the fold of its operations over ANY contents it starts from, and the stretches are
  chained.
-/
import proofs.«425047_j72997264163312_2_alg».proof.Proof.RefRead

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## The line cut into five stretches -/

/-- The two rows' normalisations and their products: operations 1–21, ending at the dot_general. -/
def c1 : List (HloOp τ sig (Elt F)) :=
  [ binary main_arg2 main_arg2 main_v0 (mulf : (⟨S100000x512, .f32⟩ : BufTy).Contents (Elt F) → (⟨S100000x512, .f32⟩ : BufTy).Contents (Elt F) → (⟨S100000x512, .f32⟩ : BufTy).Contents (Elt F)),
    nullary main_cst (constant S_ .f32 0x00000000#32),
    binary main_v0 main_cst main_v1 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    unary main_v1 main_v2 (broadcastInDim S100000x1 ![0] bcast_S100000_S100000x1_0 : (⟨S100000, .f32⟩ : BufTy).Contents (Elt F) → (⟨S100000x1, .f32⟩ : BufTy).Contents (Elt F)),
    unary main_v2 main_v3 (Host.sqrt : (⟨S100000x1, .f32⟩ : BufTy).Contents (Elt F) → (⟨S100000x1, .f32⟩ : BufTy).Contents (Elt F)),
    nullary main_cst_0 (constant S_ .f32 0x2B8CBCCC#32),
    unary main_cst_0 main_v4 (broadcastInDim S100000x1 ![] bcast_S_S100000x1 : (⟨S_, .f32⟩ : BufTy).Contents (Elt F) → (⟨S100000x1, .f32⟩ : BufTy).Contents (Elt F)),
    binary main_v3 main_v4 main_v5 (maximumf : (⟨S100000x1, .f32⟩ : BufTy).Contents (Elt F) → (⟨S100000x1, .f32⟩ : BufTy).Contents (Elt F) → (⟨S100000x1, .f32⟩ : BufTy).Contents (Elt F)),
    unary main_v5 main_v6 (broadcastInDim S100000x512 ![0, 1] bcast_S100000x1_S100000x512_0_1 : (⟨S100000x1, .f32⟩ : BufTy).Contents (Elt F) → (⟨S100000x512, .f32⟩ : BufTy).Contents (Elt F)),
    binary main_arg2 main_v6 main_v7 (Host.divf : (⟨S100000x512, .f32⟩ : BufTy).Contents (Elt F) → (⟨S100000x512, .f32⟩ : BufTy).Contents (Elt F) → (⟨S100000x512, .f32⟩ : BufTy).Contents (Elt F)),
    binary main_arg0 main_arg0 main_v8 (mulf : (⟨S512x512, .f32⟩ : BufTy).Contents (Elt F) → (⟨S512x512, .f32⟩ : BufTy).Contents (Elt F) → (⟨S512x512, .f32⟩ : BufTy).Contents (Elt F)),
    nullary main_cst_1 (constant S_ .f32 0x00000000#32),
    binary main_v8 main_cst_1 main_v9 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v9 main_v10 (broadcastInDim S512x1 ![0] bcast_S512_S512x1_0 : (⟨S512, .f32⟩ : BufTy).Contents (Elt F) → (⟨S512x1, .f32⟩ : BufTy).Contents (Elt F)),
    unary main_v10 main_v11 (Host.sqrt : (⟨S512x1, .f32⟩ : BufTy).Contents (Elt F) → (⟨S512x1, .f32⟩ : BufTy).Contents (Elt F)),
    nullary main_cst_2 (constant S_ .f32 0x2B8CBCCC#32),
    unary main_cst_2 main_v12 (broadcastInDim S512x1 ![] bcast_S_S512x1 : (⟨S_, .f32⟩ : BufTy).Contents (Elt F) → (⟨S512x1, .f32⟩ : BufTy).Contents (Elt F)),
    binary main_v11 main_v12 main_v13 (maximumf : (⟨S512x1, .f32⟩ : BufTy).Contents (Elt F) → (⟨S512x1, .f32⟩ : BufTy).Contents (Elt F) → (⟨S512x1, .f32⟩ : BufTy).Contents (Elt F)),
    unary main_v13 main_v14 (broadcastInDim S512x512 ![0, 1] bcast_S512x1_S512x512_0_1 : (⟨S512x1, .f32⟩ : BufTy).Contents (Elt F) → (⟨S512x512, .f32⟩ : BufTy).Contents (Elt F)),
    binary main_arg0 main_v14 main_v15 (Host.divf : (⟨S512x512, .f32⟩ : BufTy).Contents (Elt F) → (⟨S512x512, .f32⟩ : BufTy).Contents (Elt F) → (⟨S512x512, .f32⟩ : BufTy).Contents (Elt F)),
    binary main_v15 main_v7 main_v16 ((fun l r => Host.dotGeneral dot_S512x512_S100000x512_S512x100000_1_1_0_0_n_n none l r) : (⟨S512x512, .f32⟩ : BufTy).Contents (Elt F) → (⟨S100000x512, .f32⟩ : BufTy).Contents (Elt F) → (⟨S512x100000, .f32⟩ : BufTy).Contents (Elt F)) ]

/-- The scatter's row and column indices before their concatenation: operations 22–38. -/
def c2 : List (HloOp τ sig (Elt F)) :=
  [ nullary main_v17 (iotaInDim S512 32 0),
    nullary main_c (constantI S_ 32 0#32),
    unary main_c main_v18 (broadcastInDim S512 ![] bcast_S_S512 : (⟨S_, .i32⟩ : BufTy).Contents (Elt F) → (⟨S512, .i32⟩ : BufTy).Contents (Elt F)),
    binary main_v17 main_v18 main_v19 (cmpi .slt : (⟨S512, .i32⟩ : BufTy).Contents (Elt F) → (⟨S512, .i32⟩ : BufTy).Contents (Elt F) → (⟨S512, .i1⟩ : BufTy).Contents (Elt F)),
    nullary main_c_3 (constantI S_ 32 512#32),
    unary main_c_3 main_v20 (broadcastInDim S512 ![] bcast_S_S512 : (⟨S_, .i32⟩ : BufTy).Contents (Elt F) → (⟨S512, .i32⟩ : BufTy).Contents (Elt F)),
    binary main_v17 main_v20 main_v21 (addi : (⟨S512, .i32⟩ : BufTy).Contents (Elt F) → (⟨S512, .i32⟩ : BufTy).Contents (Elt F) → (⟨S512, .i32⟩ : BufTy).Contents (Elt F)),
    ternary main_v19 main_v21 main_v17 main_v22 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_4 (constantI S_ 32 0#32),
    unary main_c_4 main_v23 (broadcastInDim S512 ![] bcast_S_S512 : (⟨S_, .i32⟩ : BufTy).Contents (Elt F) → (⟨S512, .i32⟩ : BufTy).Contents (Elt F)),
    binary main_arg1 main_v23 main_v24 (cmpi .slt : (⟨S512, .i32⟩ : BufTy).Contents (Elt F) → (⟨S512, .i32⟩ : BufTy).Contents (Elt F) → (⟨S512, .i1⟩ : BufTy).Contents (Elt F)),
    nullary main_c_5 (constantI S_ 32 100000#32),
    unary main_c_5 main_v25 (broadcastInDim S512 ![] bcast_S_S512 : (⟨S_, .i32⟩ : BufTy).Contents (Elt F) → (⟨S512, .i32⟩ : BufTy).Contents (Elt F)),
    binary main_arg1 main_v25 main_v26 (addi : (⟨S512, .i32⟩ : BufTy).Contents (Elt F) → (⟨S512, .i32⟩ : BufTy).Contents (Elt F) → (⟨S512, .i32⟩ : BufTy).Contents (Elt F)),
    ternary main_v24 main_v26 main_arg1 main_v27 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v22 main_v28 (broadcastInDim S512x1 ![0] bcast_S512_S512x1_0 : (⟨S512, .i32⟩ : BufTy).Contents (Elt F) → (⟨S512x1, .i32⟩ : BufTy).Contents (Elt F)),
    unary main_v27 main_v29 (broadcastInDim S512x1 ![0] bcast_S512_S512x1_0 : (⟨S512, .i32⟩ : BufTy).Contents (Elt F) → (⟨S512x1, .i32⟩ : BufTy).Contents (Elt F)) ]

/-- The margin scattered in, the scale, and the shifted log-softmax: operations 39–60. -/
def c3 : List (HloOp τ sig (Elt F)) :=
  [ binary main_v28 main_v29 main_v30 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    nullary main_cst_6 (constant S_ .f32 0xBEB33333#32),
    unary main_cst_6 main_v31 (broadcastInDim S512 ![] bcast_S_S512 : (⟨S_, .f32⟩ : BufTy).Contents (Elt F) → (⟨S512, .f32⟩ : BufTy).Contents (Elt F)),
    ternary main_v16 main_v30 main_v31 main_v32 ((fun x i u => Host.scatterAdd scatter_S512x100000_S512x2_S512_n_01_01_1 x i u) : (⟨S512x100000, .f32⟩ : BufTy).Contents (Elt F) → (⟨S512x2, .i32⟩ : BufTy).Contents (Elt F) → (⟨S512, .f32⟩ : BufTy).Contents (Elt F) → (⟨S512x100000, .f32⟩ : BufTy).Contents (Elt F)),
    nullary main_cst_7 (constant S_ .f32 0x42800000#32),
    unary main_cst_7 main_v33 (broadcastInDim S512x100000 ![] bcast_S_S512x100000 : (⟨S_, .f32⟩ : BufTy).Contents (Elt F) → (⟨S512x100000, .f32⟩ : BufTy).Contents (Elt F)),
    binary main_v33 main_v32 main_v34 (mulf : (⟨S512x100000, .f32⟩ : BufTy).Contents (Elt F) → (⟨S512x100000, .f32⟩ : BufTy).Contents (Elt F) → (⟨S512x100000, .f32⟩ : BufTy).Contents (Elt F)),
    TRef.nullary (TRef.of (T := ⟨S_, .f32⟩) main_call0_cst) (constant S_ .f32 0xFF800000#32),
    TRef.binary (TRef.of (T := ⟨S512x100000, .f32⟩) main_v34) (TRef.of (T := ⟨S_, .f32⟩) main_call0_cst) (TRef.of (T := ⟨S512, .f32⟩) main_call0_v0) (fun x v => Host.reduce FloatOps.maximumf x v reducesTo_S512x100000_S512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S512, .f32⟩) main_call0_v1) (broadcastInDim S512 ![] bcast_S_S512),
    TRef.binary (TRef.of (T := ⟨S512, .f32⟩) main_call0_v1) (TRef.of (T := ⟨S512, .f32⟩) main_call0_v0) (TRef.of (T := ⟨S512, .f32⟩) main_call0_v2) maximumf,
    TRef.unary (TRef.of (T := ⟨S512, .f32⟩) main_call0_v2) (TRef.of (T := ⟨S512x1, .f32⟩) main_call0_v3) (broadcastInDim S512x1 ![0] bcast_S512_S512x1_0),
    TRef.unary (TRef.of (T := ⟨S512x1, .f32⟩) main_call0_v3) (TRef.of (T := ⟨S512x100000, .f32⟩) main_call0_v4) (broadcastInDim S512x100000 ![0, 1] bcast_S512x1_S512x100000_0_1),
    TRef.binary (TRef.of (T := ⟨S512x100000, .f32⟩) main_v34) (TRef.of (T := ⟨S512x100000, .f32⟩) main_call0_v4) (TRef.of (T := ⟨S512x100000, .f32⟩) main_call0_v5) subf,
    TRef.unary (TRef.of (T := ⟨S512x100000, .f32⟩) main_call0_v5) (TRef.of (T := ⟨S512x100000, .f32⟩) main_call0_v6) Host.exp,
    TRef.nullary (TRef.of (T := ⟨S_, .f32⟩) main_call0_cst_1) (constant S_ .f32 0x00000000#32),
    TRef.binary (TRef.of (T := ⟨S512x100000, .f32⟩) main_call0_v6) (TRef.of (T := ⟨S_, .f32⟩) main_call0_cst_1) (TRef.of (T := ⟨S512, .f32⟩) main_call0_v7) (fun x v => Host.reduceAdd x v reducesTo_S512x100000_S512_d1 h_S_),
    TRef.unary (TRef.of (T := ⟨S512, .f32⟩) main_call0_v7) (TRef.of (T := ⟨S512x1, .f32⟩) main_call0_v8) (broadcastInDim S512x1 ![0] bcast_S512_S512x1_0),
    TRef.unary (TRef.of (T := ⟨S512x1, .f32⟩) main_call0_v8) (TRef.of (T := ⟨S512x1, .f32⟩) main_call0_v9) Host.log,
    TRef.unary (TRef.of (T := ⟨S512x1, .f32⟩) main_call0_v9) (TRef.of (T := ⟨S512x100000, .f32⟩) main_call0_v10) (broadcastInDim S512x100000 ![0, 1] bcast_S512x1_S512x100000_0_1),
    TRef.binary (TRef.of (T := ⟨S512x100000, .f32⟩) main_call0_v5) (TRef.of (T := ⟨S512x100000, .f32⟩) main_call0_v10) (TRef.of (T := ⟨S512x100000, .f32⟩) main_v35) subf ]

/-- The gather's row and column indices before their concatenation: operations 61–76. -/
def c4 : List (HloOp τ sig (Elt F)) :=
  [ nullary main_c_8 (constantI S_ 32 0#32),
    unary main_c_8 main_v36 (broadcastInDim S512 ![] bcast_S_S512 : (⟨S_, .i32⟩ : BufTy).Contents (Elt F) → (⟨S512, .i32⟩ : BufTy).Contents (Elt F)),
    binary main_v17 main_v36 main_v37 (cmpi .slt : (⟨S512, .i32⟩ : BufTy).Contents (Elt F) → (⟨S512, .i32⟩ : BufTy).Contents (Elt F) → (⟨S512, .i1⟩ : BufTy).Contents (Elt F)),
    nullary main_c_9 (constantI S_ 32 512#32),
    unary main_c_9 main_v38 (broadcastInDim S512 ![] bcast_S_S512 : (⟨S_, .i32⟩ : BufTy).Contents (Elt F) → (⟨S512, .i32⟩ : BufTy).Contents (Elt F)),
    binary main_v17 main_v38 main_v39 (addi : (⟨S512, .i32⟩ : BufTy).Contents (Elt F) → (⟨S512, .i32⟩ : BufTy).Contents (Elt F) → (⟨S512, .i32⟩ : BufTy).Contents (Elt F)),
    ternary main_v37 main_v39 main_v17 main_v40 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_10 (constantI S_ 32 0#32),
    unary main_c_10 main_v41 (broadcastInDim S512 ![] bcast_S_S512 : (⟨S_, .i32⟩ : BufTy).Contents (Elt F) → (⟨S512, .i32⟩ : BufTy).Contents (Elt F)),
    binary main_arg1 main_v41 main_v42 (cmpi .slt : (⟨S512, .i32⟩ : BufTy).Contents (Elt F) → (⟨S512, .i32⟩ : BufTy).Contents (Elt F) → (⟨S512, .i1⟩ : BufTy).Contents (Elt F)),
    nullary main_c_11 (constantI S_ 32 100000#32),
    unary main_c_11 main_v43 (broadcastInDim S512 ![] bcast_S_S512 : (⟨S_, .i32⟩ : BufTy).Contents (Elt F) → (⟨S512, .i32⟩ : BufTy).Contents (Elt F)),
    binary main_arg1 main_v43 main_v44 (addi : (⟨S512, .i32⟩ : BufTy).Contents (Elt F) → (⟨S512, .i32⟩ : BufTy).Contents (Elt F) → (⟨S512, .i32⟩ : BufTy).Contents (Elt F)),
    ternary main_v42 main_v44 main_arg1 main_v45 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v40 main_v46 (broadcastInDim S512x1 ![0] bcast_S512_S512x1_0 : (⟨S512, .i32⟩ : BufTy).Contents (Elt F) → (⟨S512x1, .i32⟩ : BufTy).Contents (Elt F)),
    unary main_v45 main_v47 (broadcastInDim S512x1 ![0] bcast_S512_S512x1_0 : (⟨S512, .i32⟩ : BufTy).Contents (Elt F) → (⟨S512x1, .i32⟩ : BufTy).Contents (Elt F)) ]

/-- The gather, the negation, the sum and the division by the row count: operations 77–83. -/
def c5 : List (HloOp τ sig (Elt F)) :=
  [ binary main_v46 main_v47 main_v48 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_v35 main_v48 main_v49 ((fun x i => Host.gather gather_S512x100000_S512x2_S512_n_01_n_n_01_1_11 x i) : (⟨S512x100000, .f32⟩ : BufTy).Contents (Elt F) → (⟨S512x2, .i32⟩ : BufTy).Contents (Elt F) → (⟨S512, .f32⟩ : BufTy).Contents (Elt F)),
    unary main_v49 main_v50 (Host.negf : (⟨S512, .f32⟩ : BufTy).Contents (Elt F) → (⟨S512, .f32⟩ : BufTy).Contents (Elt F)),
    nullary main_cst_12 (constant S_ .f32 0x00000000#32),
    binary main_v50 main_cst_12 main_v51 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_13 (constant S_ .f32 0x44000000#32),
    binary main_v51 main_cst_13 main_v52 (Host.divf : (⟨S_, .f32⟩ : BufTy).Contents (Elt F) → (⟨S_, .f32⟩ : BufTy).Contents (Elt F) → (⟨S_, .f32⟩ : BufTy).Contents (Elt F)) ]

set_option maxRecDepth 8192 in
/-- The 83 operations are the five stretches in a row. -/
theorem ops_eq : (ValueP.ops : List (HloOp τ sig (Elt F))) = c1 ++ (c2 ++ (c3 ++ (c4 ++ c5))) := rfl

/-! ## Contents carried to a typed reference's buffer and back -/

/-- Contents moved to a typed reference's buffer and read back are the contents. -/
theorem ofBuf_toBuf {T : BufTy} (x : TRef sig T) (v : T.Contents (Elt F)) : x.ofBuf (x.toBuf v) = v := by
  obtain ⟨r, rfl, _, _⟩ := x; rfl

/-- At the literal reference `main_v34` reading the buffer's contents at the value's type changes nothing. -/
theorem ofBuf_v34 (v : (⟨S512x100000, .f32⟩ : BufTy).Contents (Elt F)) :
    (TRef.of (sig := sig) (T := ⟨S512x100000, .f32⟩) main_v34).ofBuf v = v := rfl

/-- At the literal reference `main_v35` moving contents to the buffer changes nothing. -/
theorem toBuf_v35 (v : (⟨S512x100000, .f32⟩ : BufTy).Contents (Elt F)) :
    (TRef.of (sig := sig) (T := ⟨S512x100000, .f32⟩) main_v35).toBuf v = v := rfl

/-! ## Each stretch over any contents it starts from -/

section Stretches

variable (W : Valuation τ sig (Elt F))

/-! ### Stretch 1 -/

set_option maxRecDepth 8192 in
set_option maxHeartbeats 4000000 in
theorem c1_v16 : after c1 W (Proc.devRef .tc main_v16)
    = ReadP.val_main_v16 (F := F) (W (Proc.devRef .tc main_arg0)) (W (Proc.devRef .tc main_arg2)) := by
  unfold c1; after_results_simp <;> rfl
theorem c1_arg0 : after c1 W (Proc.devRef .tc main_arg0) = W (Proc.devRef .tc main_arg0) := by
  unfold c1; after_results_simp
theorem c1_arg1 : after c1 W (Proc.devRef .tc main_arg1) = W (Proc.devRef .tc main_arg1) := by
  unfold c1; after_results_simp
theorem c1_arg2 : after c1 W (Proc.devRef .tc main_arg2) = W (Proc.devRef .tc main_arg2) := by
  unfold c1; after_results_simp

/-! ### Stretch 2 -/

set_option maxRecDepth 8192 in
set_option maxHeartbeats 4000000 in
theorem c2_v17 : after c2 W (Proc.devRef .tc main_v17) = ReadP.val_main_v17 (F := F) := by
  unfold c2; after_results_simp <;> rfl
set_option maxRecDepth 8192 in
set_option maxHeartbeats 4000000 in
theorem c2_v28 : after c2 W (Proc.devRef .tc main_v28) = ReadP.val_main_v28 (F := F) := by
  unfold c2; after_results_simp <;> rfl
set_option maxRecDepth 8192 in
set_option maxHeartbeats 4000000 in
theorem c2_v29 : after c2 W (Proc.devRef .tc main_v29) = ReadP.val_main_v29 (F := F) (W (Proc.devRef .tc main_arg1)) := by
  unfold c2; after_results_simp <;> rfl
theorem c2_v16 : after c2 W (Proc.devRef .tc main_v16) = W (Proc.devRef .tc main_v16) := by
  unfold c2; after_results_simp
theorem c2_arg0 : after c2 W (Proc.devRef .tc main_arg0) = W (Proc.devRef .tc main_arg0) := by
  unfold c2; after_results_simp
theorem c2_arg1 : after c2 W (Proc.devRef .tc main_arg1) = W (Proc.devRef .tc main_arg1) := by
  unfold c2; after_results_simp
theorem c2_arg2 : after c2 W (Proc.devRef .tc main_arg2) = W (Proc.devRef .tc main_arg2) := by
  unfold c2; after_results_simp

/-! ### Stretch 3 -/

set_option maxRecDepth 8192 in
set_option maxHeartbeats 4000000 in
theorem c3_v35 (x0 : (⟨S512x512, .f32⟩ : BufTy).Contents (Elt F)) (x1 : (⟨S512, .i32⟩ : BufTy).Contents (Elt F))
    (x2 : (⟨S100000x512, .f32⟩ : BufTy).Contents (Elt F))
    (h16 : W (Proc.devRef .tc main_v16) = ReadP.val_main_v16 (F := F) x0 x2)
    (h28 : W (Proc.devRef .tc main_v28) = ReadP.val_main_v28 (F := F))
    (h29 : W (Proc.devRef .tc main_v29) = ReadP.val_main_v29 (F := F) x1) :
    after c3 W (Proc.devRef .tc main_v35) = ReadP.val_main_v35 (F := F) x0 x1 x2 := by
  unfold c3; after_results_simp
  simp only [ofBuf_toBuf]
  rw [h16, h28, h29, ofBuf_v34, toBuf_v35]
  rfl
theorem c3_v17 : after c3 W (Proc.devRef .tc main_v17) = W (Proc.devRef .tc main_v17) := by
  unfold c3; after_results_simp
theorem c3_arg0 : after c3 W (Proc.devRef .tc main_arg0) = W (Proc.devRef .tc main_arg0) := by
  unfold c3; after_results_simp
theorem c3_arg1 : after c3 W (Proc.devRef .tc main_arg1) = W (Proc.devRef .tc main_arg1) := by
  unfold c3; after_results_simp
theorem c3_arg2 : after c3 W (Proc.devRef .tc main_arg2) = W (Proc.devRef .tc main_arg2) := by
  unfold c3; after_results_simp

/-! ### Stretch 4 -/

set_option maxRecDepth 8192 in
set_option maxHeartbeats 4000000 in
theorem c4_v46 (h17 : W (Proc.devRef .tc main_v17) = ReadP.val_main_v17 (F := F)) :
    after c4 W (Proc.devRef .tc main_v46) = ReadP.val_main_v46 (F := F) := by
  unfold c4; after_results_simp
  rw [h17]
  rfl
set_option maxRecDepth 8192 in
set_option maxHeartbeats 4000000 in
theorem c4_v47 : after c4 W (Proc.devRef .tc main_v47) = ReadP.val_main_v47 (F := F) (W (Proc.devRef .tc main_arg1)) := by
  unfold c4; after_results_simp <;> rfl
theorem c4_v35 : after c4 W (Proc.devRef .tc main_v35) = W (Proc.devRef .tc main_v35) := by
  unfold c4; after_results_simp
theorem c4_arg0 : after c4 W (Proc.devRef .tc main_arg0) = W (Proc.devRef .tc main_arg0) := by
  unfold c4; after_results_simp
theorem c4_arg1 : after c4 W (Proc.devRef .tc main_arg1) = W (Proc.devRef .tc main_arg1) := by
  unfold c4; after_results_simp
theorem c4_arg2 : after c4 W (Proc.devRef .tc main_arg2) = W (Proc.devRef .tc main_arg2) := by
  unfold c4; after_results_simp

/-! ### Stretch 5 -/

set_option maxRecDepth 8192 in
set_option maxHeartbeats 4000000 in
theorem c5_v52 (x0 : (⟨S512x512, .f32⟩ : BufTy).Contents (Elt F)) (x1 : (⟨S512, .i32⟩ : BufTy).Contents (Elt F))
    (x2 : (⟨S100000x512, .f32⟩ : BufTy).Contents (Elt F))
    (h35 : W (Proc.devRef .tc main_v35) = ReadP.val_main_v35 (F := F) x0 x1 x2)
    (h46 : W (Proc.devRef .tc main_v46) = ReadP.val_main_v46 (F := F))
    (h47 : W (Proc.devRef .tc main_v47) = ReadP.val_main_v47 (F := F) x1) :
    after c5 W (Proc.devRef .tc main_v52) = ReadP.val_main_v52 (F := F) x0 x1 x2 := by
  unfold c5; after_results_simp
  rw [h35, h46, h47]
  rfl
theorem c5_arg0 : after c5 W (Proc.devRef .tc main_arg0) = W (Proc.devRef .tc main_arg0) := by
  unfold c5; after_results_simp
theorem c5_arg1 : after c5 W (Proc.devRef .tc main_arg1) = W (Proc.devRef .tc main_arg1) := by
  unfold c5; after_results_simp
theorem c5_arg2 : after c5 W (Proc.devRef .tc main_arg2) = W (Proc.devRef .tc main_arg2) := by
  unfold c5; after_results_simp

end Stretches

/-! ## The stretches chained -/

section Chain

variable (V : Valuation τ sig (Elt F))

/-- No operation writes argument 0. -/
theorem res_arg0 : after (ValueP.ops (F := F)) V (Proc.devRef .tc main_arg0) = V (Proc.devRef .tc main_arg0) := by
  rw [ops_eq, after_append, after_append, after_append, after_append, c5_arg0, c4_arg0, c3_arg0, c2_arg0, c1_arg0]
/-- No operation writes argument 1. -/
theorem res_arg1 : after (ValueP.ops (F := F)) V (Proc.devRef .tc main_arg1) = V (Proc.devRef .tc main_arg1) := by
  rw [ops_eq, after_append, after_append, after_append, after_append, c5_arg1, c4_arg1, c3_arg1, c2_arg1, c1_arg1]
/-- No operation writes argument 2. -/
theorem res_arg2 : after (ValueP.ops (F := F)) V (Proc.devRef .tc main_arg2) = V (Proc.devRef .tc main_arg2) := by
  rw [ops_eq, after_append, after_append, after_append, after_append, c5_arg2, c4_arg2, c3_arg2, c2_arg2, c1_arg2]

/-- The result buffer after the whole line, from any contents: the last stage at the contents of the three arguments. -/
theorem res_v52 : after (ValueP.ops (F := F)) V (Proc.devRef .tc main_v52)
    = ReadP.val_main_v52 (F := F) (V (Proc.devRef .tc main_arg0)) (V (Proc.devRef .tc main_arg1)) (V (Proc.devRef .tc main_arg2)) := by
  rw [ops_eq, after_append, after_append, after_append, after_append]
  have a1 : after c1 V (Proc.devRef .tc main_arg1) = V (Proc.devRef .tc main_arg1) := c1_arg1 V
  have a3 : after c3 (after c2 (after c1 V)) (Proc.devRef .tc main_arg1) = V (Proc.devRef .tc main_arg1) := by rw [c3_arg1, c2_arg1, a1]
  have h16 : after c2 (after c1 V) (Proc.devRef .tc main_v16) = ReadP.val_main_v16 (F := F) (V (Proc.devRef .tc main_arg0)) (V (Proc.devRef .tc main_arg2)) := by
    rw [c2_v16, c1_v16]
  have h28 : after c2 (after c1 V) (Proc.devRef .tc main_v28) = ReadP.val_main_v28 (F := F) := c2_v28 _
  have h29 : after c2 (after c1 V) (Proc.devRef .tc main_v29) = ReadP.val_main_v29 (F := F) (V (Proc.devRef .tc main_arg1)) := by
    rw [c2_v29, a1]
  have h17 : after c3 (after c2 (after c1 V)) (Proc.devRef .tc main_v17) = ReadP.val_main_v17 (F := F) := by
    rw [c3_v17, c2_v17]
  have h35 : after c4 (after c3 (after c2 (after c1 V))) (Proc.devRef .tc main_v35)
      = ReadP.val_main_v35 (F := F) (V (Proc.devRef .tc main_arg0)) (V (Proc.devRef .tc main_arg1)) (V (Proc.devRef .tc main_arg2)) := by
    rw [c4_v35]; exact c3_v35 _ _ _ _ h16 h28 h29
  have h46 : after c4 (after c3 (after c2 (after c1 V))) (Proc.devRef .tc main_v46) = ReadP.val_main_v46 (F := F) :=
    c4_v46 _ h17
  have h47 : after c4 (after c3 (after c2 (after c1 V))) (Proc.devRef .tc main_v47) = ReadP.val_main_v47 (F := F) (V (Proc.devRef .tc main_arg1)) := by
    rw [c4_v47, a3]
  exact c5_v52 _ _ _ _ h35 h46 h47

end Chain

/-- The reference's run, its result stated by the stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = Cert.ReferenceIdeal.ReadP.val_main_v52 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v52).trans (res_v52 _),
      (h c main_arg0).trans (res_arg0 _),
      (h c main_arg1).trans (res_arg1 _),
      (h c main_arg2).trans (res_arg2 _)⟩)
    (run_seq ValueP.scopedRefs_eq ValueP.scopedSems_eq defs main (fun _ => ValueP.ops) ValueP.main_eq (fun _ => ValueP.ops_sub) m ρ)

end Cert.ReferenceIdeal.RunHand

end
-- ==== Proof.PreDecode.lean ====
/-
  The precondition read back: every float input is finite and every target class is a row of the table.
-/
import proofs.«425047_j72997264163312_2_alg».proof.Pre_finite_inputs
import proofs.«425047_j72997264163312_2_alg».proof.Proof.Gen.Pre_finite_inputs
import proofs.«425047_j72997264163312_2_alg».proof.Proof.Inputs
import Idealize.ShloMosaic.Lib.ReduceAll
import Idealize.ShloMosaic.Lib.StableHlo.Predicate

noncomputable section

namespace CosMargin

open Idealize.ShloMosaic Idealize.ShloMosaic.ValueIdx

/-- The shape of a scalar has one index. -/
instance subsingleton_scalar_idx : Subsingleton Cert.Pre_finite_inputs.S_.Idx :=
  ⟨fun _ _ => funext fun d => d.elim0⟩

/-- The binary32 pattern of +∞ denotes `⊤`. -/
theorem ofBits_pos_inf : Ideal.ofBits .f32 0x7F800000#32 = (⊤ : EReal) := by
  simp [Ideal.ofBits, Ideal.ieee]

/-- An extended real whose absolute value is below `⊤` is a real number. -/
theorem coe_toReal_of_abs_lt_top (a : EReal) (h : Ideal.cmp .olt (max a (-a)) ⊤ = 1#1) :
    a = ((a.toReal : ℝ) : EReal) := by
  induction a using EReal.rec with
  | bot => simp [Ideal.cmp] at h
  | top => simp [Ideal.cmp] at h
  | coe r => simp

/-- A 32-bit word that read signed is at least 0 and below 100000 is below 100000 read unsigned. -/
theorem toNat_lt_of_signed_range (a : BitVec 32) (h1 : IntOp.cmpi .sge a 0#32 = 1#1)
    (h2 : IntOp.cmpi .slt a 100000#32 = 1#1) : a.toNat < 100000 := by
  simp only [IntOp.cmpi, StableHlo.Predicate.ofBool_eq_one_iff, BitVec.sle, BitVec.slt, decide_eq_true_eq] at h1 h2
  have e0 : (0#32 : BitVec 32).toInt = 0 := by decide
  have e1 : (100000#32 : BitVec 32).toInt = 100000 := by decide
  rw [e0] at h1
  rw [e1] at h2
  rw [BitVec.toInt_eq_toNat_cond] at h1 h2
  have := a.isLt
  split at h1 <;> omega

/-- If the printed predicate answers 1 on `x`, `g`, `w`, the entries of `x` and `w` are real numbers and every
    word of `g` is below 100000 (read signed it is also at least 0, so unsigned it is below 100000). -/
theorem good_of_pre [Cert.Pre_finite_inputs.Facts] (x : XS.Idx → EReal) (g : GS.Idx → BitVec 32) (w : WS.Idx → EReal)
    (h : Cert.Pre_finite_inputs.fn (F := Ideal) x g w = fun _ => 1#1) : Good x g w := by
  have h0 := congrFun h ValueIdx.ix0
  dsimp only [Cert.Pre_finite_inputs.fn] at h0
  rw [show ∀ (a b : IVec Cert.Pre_finite_inputs.S_ 1) i, andi a b i = IntOp.andi (a i) (b i) from fun _ _ _ => rfl] at h0
  obtain ⟨h01, hg⟩ := IntOp.andi_eq_one.1 h0
  rw [show ∀ (a b : IVec Cert.Pre_finite_inputs.S_ 1) i, andi a b i = IntOp.andi (a i) (b i) from fun _ _ _ => rfl] at h01
  obtain ⟨hx, hw⟩ := IntOp.andi_eq_one.1 h01
  have hxa := Host.reduce_andi_all _ _ _ _ _ hx
  have hwa := Host.reduce_andi_all _ _ _ _ _ hw
  have hga := Host.reduce_andi_all _ _ _ _ _ hg
  refine ⟨fun b d => ?_, fun c d => ?_, fun b => ?_⟩
  · have e := hxa (ix2 b d)
    change Ideal.cmp .olt (max (x (ix2 b d)) (-(x (ix2 b d)))) (Ideal.ofBits .f32 0x7F800000#32) = 1#1 at e
    rw [ofBits_pos_inf] at e
    exact coe_toReal_of_abs_lt_top _ e
  · have e := hwa (ix2 c d)
    change Ideal.cmp .olt (max (w (ix2 c d)) (-(w (ix2 c d)))) (Ideal.ofBits .f32 0x7F800000#32) = 1#1 at e
    rw [ofBits_pos_inf] at e
    exact coe_toReal_of_abs_lt_top _ e
  · have e := hga (ix1 b)
    change IntOp.andi (IntOp.cmpi .sge (g (ix1 b)) 0#32) (IntOp.cmpi .slt (g (ix1 b)) 100000#32) = 1#1 at e
    obtain ⟨e1, e2⟩ := IntOp.andi_eq_one.1 e
    exact toNat_lt_of_signed_range _ e1 e2

end CosMargin

end
-- ==== Proof.lean ====
/-
  The certificate: a cosine-margin cross-entropy computed in one pass over the class table equals the reference's
  log-softmax form, over the extended reals, for finite inputs and target classes inside the table.

  Both programs normalise the activations and the table's rows (by norms clamped below at the same small number) and
  take cosines. The reference lowers the target's cosine by the margin, scales, and reads `-log_softmax` at the target:
  `log (∑ c, exp (l c - M)) + M - l g` with `M` the row's largest logit. The kernel streams the table once, summing
  `exp (s · cos c)` over ALL classes with no margin (two halves of the table, 25 tiles each), and afterwards replaces the
  target's plain term by its margined one, guards the logarithm below by a tiny constant, and subtracts `l g`. The two
  are equal because the shift `M` cancels and the guard never binds: every cosine is at least `-1`, so a single
  non-target term already exceeds it (Proof/RealAlg.lean). What the kernel's region computes is read off its generated
  frame (Proof/KRegion.lean), the host operations around it in Proof/KHostPre.lean and Proof/KTail.lean, the reference
  from its run (Proof/RefRunHand.lean) read operation by operation (Proof/RefLogits.lean, Proof/RefValue.lean), and the precondition is
  decoded in Proof/PreDecode.lean.
-/
import proofs.«425047_j72997264163312_2_alg».proof.Defs
import proofs.«425047_j72997264163312_2_alg».proof.Proof.Gen.Kernel
import proofs.«425047_j72997264163312_2_alg».proof.Proof.Gen.Kernel.Frame
import proofs.«425047_j72997264163312_2_alg».proof.Proof.Gen.KernelIdeal
import proofs.«425047_j72997264163312_2_alg».proof.Proof.Gen.KernelIdeal.Frame
import proofs.«425047_j72997264163312_2_alg».proof.Proof.Gen.ReferenceIdeal
import proofs.«425047_j72997264163312_2_alg».proof.Proof.Gen.Pre_finite_inputs
import proofs.«425047_j72997264163312_2_alg».proof.Proof.KValue
import proofs.«425047_j72997264163312_2_alg».proof.Proof.RefValue
import proofs.«425047_j72997264163312_2_alg».proof.Proof.RefRunHand
import proofs.«425047_j72997264163312_2_alg».proof.Proof.PreDecode
import Idealize.ShloMosaic.Adequacy
import Idealize.ShloMosaic.Init

noncomputable section

namespace Cert.Proof

open Idealize.ShloMosaic Idealize.SL.Sem CosMargin

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunHand.run (F := Ideal) m ρ)

/-- Some class other than `g`: the table has more than one row. -/
theorem exists_ne (g : Fin 100000) : ∃ c : Fin 100000, c ≠ g := by
  by_cases h : g = ⟨0, by norm_num⟩
  · exact ⟨⟨1, by norm_num⟩, by rw [h]; exact fun h' => absurd (congrArg Fin.val h') (by norm_num)⟩
  · exact ⟨⟨0, by norm_num⟩, fun h' => h h'.symm⟩

/-- From inputs that agree, the kernel's program ends at the mean one-pass row loss and the reference at the mean
    shifted log-softmax row loss: one number, row by row. -/
theorem algebraic : Cert.algebraic_KernelIdeal_ReferenceIdeal := by
  intro m ρ m' ρ' hpre hagree
  have hgood : ∀ c, Good (Cert.KernelIdeal.KV.xin m c) (Cert.KernelIdeal.KV.gin m c) (Cert.KernelIdeal.KV.win m c) :=
    fun c => good_of_pre _ _ _ (hpre c)
  refine ⟨fun c => fun _ => kLoss (Cert.KernelIdeal.KV.xin m c) (Cert.KernelIdeal.KV.gin m c) (Cert.KernelIdeal.KV.win m c),
    Cert.KernelIdeal.KV.run m ρ hgood, ?_⟩
  refine (θ_run Cert.ReferenceIdeal.defs _ _).mono (fun _ h c => ⟨(h c).1.trans ?_, (h c).2⟩)
    (Cert.ReferenceIdeal.RunHand.run (F := Ideal) m' ρ')
  rw [(hagree c).1, (hagree c).2.1, (hagree c).2.2]
  obtain ⟨M, hM⟩ := Cert.ReferenceIdeal.RefValue.ref_value _ _ _ (hgood c)
  refine hM.trans ?_
  funext _
  unfold rLoss kLoss meanOf
  congr 2
  refine Finset.sum_congr rfl fun b _ => ?_
  exact (kRow_eq_rRow epsv_pos (by norm_num) tinyv_le _ _ _ (exists_ne _) (M b)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
